-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S32768 : Shape := ⟨1, ![32768]⟩
abbrev S256x768 : Shape := ⟨2, ![256, 768]⟩
abbrev S256 : Shape := ⟨1, ![256]⟩
abbrev S504x256 : Shape := ⟨2, ![504, 256]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S504x256 : S_.BroadcastsInDim S504x256 (![] : Fin 0 → Fin S504x256.rank)
  reducesTo_S504x256_S_d0_1 : S504x256.ReducesTo [0, 1] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg1 : IVec S32768 32) (main_v13 : IVec S_ 1) (main_v16 : IVec S504x256 1) : IVec S_ 1 :=
  let main_c_5 : IVec S_ 1 := constantI S_ 1 1#1
  let main_v17 : IVec S_ 1 := (fun x v => Host.reduce IntOp.andi x v reducesTo_S504x256_S_d0_1 h_S_) main_v16 main_c_5
  let main_v18 : IVec S_ 1 := andi main_v13 main_v17
  let main_c_6 : IVec S_ 32 := constantI S_ 32 0#32
  let main_v19 : IVec S32768 32 := broadcastInDim S32768 ![] bcast_S_S32768 main_c_6
  let main_v20 : IVec S32768 1 := cmpi .sge main_arg1 main_v19
  let main_c_7 : IVec S_ 32 := constantI S_ 32 504#32
  let main_v21 : IVec S32768 32 := broadcastInDim S32768 ![] bcast_S_S32768 main_c_7
  let main_v22 : IVec S32768 1 := cmpi .slt main_arg1 main_v21
  let main_v23 : IVec S32768 1 := andi main_v20 main_v22
  let main_c_8 : IVec S_ 1 := constantI S_ 1 1#1
  let main_v24 : IVec S_ 1 := (fun x v => Host.reduce IntOp.andi x v reducesTo_S32768_S_d0 h_S_) main_v23 main_c_8
  let main_v25 : IVec S_ 1 := andi main_v18 main_v24
  main_v25

def fn {F : FTy → Type} [FloatOps F] (main_arg0 : FVec F S32768x768 .f32) (main_arg1 : IVec S32768 32) (main_arg2 : FVec F S256x768 .f32) (main_arg3 : FVec F S256 .f32) (main_arg4 : FVec F S504x256 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S256x768 .f32 := Host.absf main_arg2
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S504x256 .f32 := Host.absf main_arg4
  let main_cst_4 : FVec F S_ .f32 := constant S_ .f32 0x7F800000#32
  let main_v15 : FVec F S504x256 .f32 := broadcastInDim S504x256 ![] bcast_S_S504x256 main_cst_4
  let main_v16 : IVec S504x256 1 := cmpf .olt main_v14 main_v15
  fn_part1 (F := F) main_arg1 main_v13 main_v16
-- ==== Kernel.lean ====
abbrev S32768x768 : Shape := ⟨2, ![32768, 768]⟩
abbrev S32768 : Shape := ⟨1, ![32768]⟩
abbrev S256x768 : Shape := ⟨2, ![256, 768]⟩
abbrev S256 : Shape := ⟨1, ![256]⟩
abbrev S504x256 : Shape := ⟨2, ![504, 256]⟩
abbrev S_ : Shape := ⟨0, ![]⟩
abbrev S512x256 : Shape := ⟨2, ![512, 256]⟩
abbrev S512 : Shape := ⟨1, ![512]⟩
abbrev S512x1 : Shape := ⟨2, ![512, 1]⟩
abbrev S256x512 : Shape := ⟨2, ![256, 512]⟩
abbrev S512x1x256 : Shape := ⟨3, ![512, 1, 256]⟩
abbrev S1x512x256 : Shape := ⟨3, ![1, 512, 256]⟩
abbrev S512x512x256 : Shape := ⟨3, ![512, 512, 256]⟩
abbrev S512x512 : Shape := ⟨2, ![512, 512]⟩
abbrev S768x256 : Shape := ⟨2, ![768, 256]⟩
abbrev S1x256 : Shape := ⟨2, ![1, 256]⟩
abbrev S32768x1 : Shape := ⟨2, ![32768, 1]⟩
abbrev S32768x505 : Shape := ⟨2, ![32768, 505]⟩
abbrev S1024x768 : Shape := ⟨2, ![1024, 768]⟩
abbrev S1024x1 : Shape := ⟨2, ![1024, 1]⟩
abbrev S1024x505 : Shape := ⟨2, ![1024, 505]⟩
abbrev S1024x256 : Shape := ⟨2, ![1024, 256]⟩
abbrev S1024 : Shape := ⟨1, ![1024]⟩
abbrev S1024x512 : Shape := ⟨2, ![1024, 512]⟩
abbrev S1024x504 : Shape := ⟨2, ![1024, 504]⟩

abbrev nBuf : Space → Nat
  | .hbm => 33
  | .vmem => 10
  | .smem => 0
  | _ => 0

abbrev bufTy : (tb : Table) → Fin (tcTables nBuf tb) → BufTy
  | .hbm, ⟨0, _⟩ => ⟨S32768x768, .f32⟩
  | .hbm, ⟨1, _⟩ => ⟨S32768, .i32⟩
  | .hbm, ⟨2, _⟩ => ⟨S256x768, .f32⟩
  | .hbm, ⟨3, _⟩ => ⟨S256, .f32⟩
  | .hbm, ⟨4, _⟩ => ⟨S504x256, .f32⟩
  | .hbm, ⟨5, _⟩ => ⟨S_, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x256, .f32⟩
  | .hbm, ⟨17, _⟩ => ⟨S512x256, .f32⟩
  | .hbm, ⟨18, _⟩ => ⟨S256x512, .f32⟩
  | .hbm, ⟨19, _⟩ => ⟨S256x512, .bf16⟩
  | .hbm, ⟨20, _⟩ => ⟨S512x1x256, .f32⟩
  | .hbm, ⟨21, _⟩ => ⟨S1x512x256, .f32⟩
  | .hbm, ⟨22, _⟩ => ⟨S512x512x256, .f32⟩
  | .hbm, ⟨23, _⟩ => ⟨S512x512x256, .f32⟩
  | .hbm, ⟨24, _⟩ => ⟨S512x512x256, .i1⟩
  | .hbm, ⟨25, _⟩ => ⟨S_, .i1⟩
  | .hbm, ⟨26, _⟩ => ⟨S512x512, .i1⟩
  | .hbm, ⟨27, _⟩ => ⟨S512x512, .bf16⟩
  | .hbm, ⟨28, _⟩ => ⟨S768x256, .f32⟩
  | .hbm, ⟨29, _⟩ => ⟨S768x256, .bf16⟩
  | .hbm, ⟨30, _⟩ => ⟨S1x256, .f32⟩
  | .hbm, ⟨31, _⟩ => ⟨S32768x1, .i32⟩
  | .hbm, ⟨32, _⟩ => ⟨S32768x505, .f32⟩
  | .local _ .vmem, ⟨0, _⟩ => ⟨S1024x768, .f32⟩
  | .local _ .vmem, ⟨1, _⟩ => ⟨S1024x768, .f32⟩
  | .local _ .vmem, ⟨2, _⟩ => ⟨S1024x1, .i32⟩
  | .local _ .vmem, ⟨3, _⟩ => ⟨S1024x1, .i32⟩
  | .local _ .vmem, ⟨4, _⟩ => ⟨S768x256, .bf16⟩
  | .local _ .vmem, ⟨5, _⟩ => ⟨S1x256, .f32⟩
  | .local _ .vmem, ⟨6, _⟩ => ⟨S256x512, .bf16⟩
  | .local _ .vmem, ⟨7, _⟩ => ⟨S512x512, .bf16⟩
  | .local _ .vmem, ⟨8, _⟩ => ⟨S1024x505, .f32⟩
  | .local _ .vmem, ⟨9, _⟩ => ⟨S1024x505, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_call1_v2 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x505 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S504x256_S512x256_080_000 : S504x256.Pads (![0, 0] : Fin 2 → Nat) ![8, 0] ![0, 0] S512x256
  h_S_ : 0 < S_.numel
  reducesTo_S512x256_S512_d1 : S512x256.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  transposes_S512x256_S256x512_1_0 : S512x256.Transposes [1, 0] S256x512
  bitsLt_bf16_f32 : FTy.bits .bf16 < FTy.bits .f32
  bcast_S512x256_S512x1x256_0_2 : S512x256.BroadcastsInDim S512x1x256 (![0, 2] : Fin 2 → Fin S512x1x256.rank)
  bcast_S512x256_S1x512x256_1_2 : S512x256.BroadcastsInDim S1x512x256 (![1, 2] : Fin 2 → Fin S1x512x256.rank)
  bcast_S512x1x256_S512x512x256_0_1_2 : S512x1x256.BroadcastsInDim S512x512x256 (![0, 1, 2] : Fin 3 → Fin S512x512x256.rank)
  bcast_S1x512x256_S512x512x256_0_1_2 : S1x512x256.BroadcastsInDim S512x512x256 (![0, 1, 2] : Fin 3 → Fin S512x512x256.rank)
  reducesTo_S512x512x256_S512x512_d2 : S512x512x256.ReducesTo [2] S512x512
  transposes_S256x768_S768x256_1_0 : S256x768.Transposes [1, 0] S768x256
  shapeCasts_S256_S1x256 : S256.ShapeCasts S1x256
  shapeCasts_S32768_S32768x1 : S32768.ShapeCasts S32768x1
  inb_S1024x768_S1024x768_0_0 : ∀ a, (![0, 0] : Fin 2 → Nat) a + S1024x768.size a ≤ S1024x768.size a
  h_S1024x768 : 0 < S1024x768.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x512_d1_w32 : S1024x512.Iotas .tc 32 [1]
  broadcasts_S1024x1_S1024x512 : S1024x1.Broadcasts S1024x512
  reduces_S1024x512_S1024 : S1024x512.Reduces [1] S1024
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S1024x512_o0_0_S1024x504 : S1024x512.Slices ![0, 0] S1024x504
  concatenates_S1024x1_S1024x504_S1024x505_d1 : Shape.Concatenates [S1024x1, S1024x504] S1024x505 1
  inb_S1024x505_S1024x505_0_0 : ∀ a, (![0, 0] : Fin 2 → Nat) a + S1024x505.size a ≤ S1024x505.size a
  h_S1024x505 : 0 < S1024x505.numel
  dot_S1024x768_S768x256_S1024x256_1_0_0_1_n_n_wf : DotDims.WF S1024x768 S768x256 S1024x256 [1] [0] [0] [1] [] []
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .i32 = 32 ∨ (Rect.block (s := S32768x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .bf16 = 32 ∨ (Rect.block (s := S768x256) S768x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x505.size a ≤ S32768x505.size a
  hwx0_6 : ∀ i : grid0.Coords, EltTy.bits .f32 = 32 ∨ (Rect.block (s := S32768x505) S1024x505.size (cc0_transform_6 i) (hinb0_6 i)).WholeWords (EltTy.packing .f32)

variable [Facts₀]

def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1024x505.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x768 : Shape := ⟨2, ![32768, 768]⟩
abbrev S32768 : Shape := ⟨1, ![32768]⟩
abbrev S256x768 : Shape := ⟨2, ![256, 768]⟩
abbrev S256 : Shape := ⟨1, ![256]⟩
abbrev S504x256 : Shape := ⟨2, ![504, 256]⟩
abbrev S768x256 : Shape := ⟨2, ![768, 256]⟩
abbrev S32768x256 : Shape := ⟨2, ![32768, 256]⟩
abbrev S1x256 : Shape := ⟨2, ![1, 256]⟩
abbrev S_ : Shape := ⟨0, ![]⟩
abbrev S32768x1 : Shape := ⟨2, ![32768, 1]⟩
abbrev S504 : Shape := ⟨1, ![504]⟩
abbrev S504x1 : Shape := ⟨2, ![504, 1]⟩
abbrev S256x504 : Shape := ⟨2, ![256, 504]⟩
abbrev S32768x504 : Shape := ⟨2, ![32768, 504]⟩
abbrev S32768x1x1 : Shape := ⟨3, ![32768, 1, 1]⟩
abbrev S1 : Shape := ⟨1, ![1]⟩
abbrev S1x1x1 : Shape := ⟨3, ![1, 1, 1]⟩
abbrev S504x1x256 : Shape := ⟨3, ![504, 1, 256]⟩
abbrev S1x504x256 : Shape := ⟨3, ![1, 504, 256]⟩
abbrev S504x504x256 : Shape := ⟨3, ![504, 504, 256]⟩
abbrev S504x504 : Shape := ⟨2, ![504, 504]⟩
abbrev S32768x505 : Shape := ⟨2, ![32768, 505]⟩

abbrev nBuf : Space → Nat
  | .hbm => 79
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S32768, .i32⟩
  | .hbm, ⟨2, _⟩ => ⟨S256x768, .f32⟩
  | .hbm, ⟨3, _⟩ => ⟨S256, .f32⟩
  | .hbm, ⟨4, _⟩ => ⟨S504x256, .f32⟩
  | .hbm, ⟨5, _⟩ => ⟨S768x256, .f32⟩
  | .hbm, ⟨6, _⟩ => ⟨S32768x256, .f32⟩
  | .hbm, ⟨7, _⟩ => ⟨S1x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x256, .f32⟩
  | .hbm, ⟨19, _⟩ => ⟨S32768x256, .f32⟩
  | .hbm, ⟨20, _⟩ => ⟨S504x256, .f32⟩
  | .hbm, ⟨21, _⟩ => ⟨S_, .f32⟩
  | .hbm, ⟨22, _⟩ => ⟨S504, .f32⟩
  | .hbm, ⟨23, _⟩ => ⟨S504x1, .f32⟩
  | .hbm, ⟨24, _⟩ => ⟨S504x1, .f32⟩
  | .hbm, ⟨25, _⟩ => ⟨S_, .f32⟩
  | .hbm, ⟨26, _⟩ => ⟨S504x1, .f32⟩
  | .hbm, ⟨27, _⟩ => ⟨S504x1, .f32⟩
  | .hbm, ⟨28, _⟩ => ⟨S504x256, .f32⟩
  | .hbm, ⟨29, _⟩ => ⟨S504x256, .f32⟩
  | .hbm, ⟨30, _⟩ => ⟨S256x504, .f32⟩
  | .hbm, ⟨31, _⟩ => ⟨S32768x504, .f32⟩
  | .hbm, ⟨32, _⟩ => ⟨S_, .f32⟩
  | .hbm, ⟨33, _⟩ => ⟨S32768x504, .f32⟩
  | .hbm, ⟨34, _⟩ => ⟨S32768x504, .f32⟩
  | .hbm, ⟨35, _⟩ => ⟨S32768x1, .i32⟩
  | .hbm, ⟨36, _⟩ => ⟨S_, .i32⟩
  | .hbm, ⟨37, _⟩ => ⟨S32768x1, .i32⟩
  | .hbm, ⟨38, _⟩ => ⟨S32768x1, .i1⟩
  | .hbm, ⟨39, _⟩ => ⟨S_, .i32⟩
  | .hbm, ⟨40, _⟩ => ⟨S32768x1, .i32⟩
  | .hbm, ⟨41, _⟩ => ⟨S32768x1, .i32⟩
  | .hbm, ⟨42, _⟩ => ⟨S32768x1, .i32⟩
  | .hbm, ⟨43, _⟩ => ⟨S32768x1x1, .i32⟩
  | .hbm, ⟨44, _⟩ => ⟨S1, .i32⟩
  | .hbm, ⟨45, _⟩ => ⟨S_, .i32⟩
  | .hbm, ⟨46, _⟩ => ⟨S32768x1x1, .i32⟩
  | .hbm, ⟨47, _⟩ => ⟨S32768x1x1, .i1⟩
  | .hbm, ⟨48, _⟩ => ⟨S1x1x1, .i32⟩
  | .hbm, ⟨49, _⟩ => ⟨S32768x1x1, .i32⟩
  | .hbm, ⟨50, _⟩ => ⟨S32768x1x1, .i1⟩
  | .hbm, ⟨51, _⟩ => ⟨S32768x1x1, .i1⟩
  | .hbm, ⟨52, _⟩ => ⟨S_, .i1⟩
  | .hbm, ⟨53, _⟩ => ⟨S32768x1, .i1⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S504x1x256, .f32⟩
  | .hbm, ⟨59, _⟩ => ⟨S1x504x256, .f32⟩
  | .hbm, ⟨60, _⟩ => ⟨S504x504x256, .f32⟩
  | .hbm, ⟨61, _⟩ => ⟨S504x504x256, .f32⟩
  | .hbm, ⟨62, _⟩ => ⟨S504x504x256, .i1⟩
  | .hbm, ⟨63, _⟩ => ⟨S_, .i1⟩
  | .hbm, ⟨64, _⟩ => ⟨S504x504, .i1⟩
  | .hbm, ⟨65, _⟩ => ⟨S_, .i32⟩
  | .hbm, ⟨66, _⟩ => ⟨S32768, .i32⟩
  | .hbm, ⟨67, _⟩ => ⟨S32768, .i1⟩
  | .hbm, ⟨68, _⟩ => ⟨S_, .i32⟩
  | .hbm, ⟨69, _⟩ => ⟨S32768, .i32⟩
  | .hbm, ⟨70, _⟩ => ⟨S32768, .i32⟩
  | .hbm, ⟨71, _⟩ => ⟨S32768, .i32⟩
  | .hbm, ⟨72, _⟩ => ⟨S32768x1, .i32⟩
  | .hbm, ⟨73, _⟩ => ⟨S32768x504, .i1⟩
  | .hbm, ⟨74, _⟩ => ⟨S_, .f32⟩
  | .hbm, ⟨75, _⟩ => ⟨S_, .f32⟩
  | .hbm, ⟨76, _⟩ => ⟨S32768x504, .f32⟩
  | .hbm, ⟨77, _⟩ => ⟨S32768x504, .f32⟩
  | .hbm, ⟨78, _⟩ => ⟨S32768x505, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_cst : Ref sig .tc := ⟨.hbm, 55, rfl⟩
abbrev main_call2_v14 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c : Ref sig .tc := ⟨.hbm, 63, rfl⟩
abbrev main_v26 : Ref sig .tc := ⟨.hbm, 64, rfl⟩
abbrev main_c_2 : Ref sig .tc := ⟨.hbm, 65, rfl⟩
abbrev main_v27 : Ref sig .tc := ⟨.hbm, 66, rfl⟩
abbrev main_v28 : Ref sig .tc := ⟨.hbm, 67, rfl⟩
abbrev main_c_3 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_call3_v0 : Ref sig .tc := ⟨.hbm, 75, rfl⟩
abbrev main_call3_v1 : Ref sig .tc := ⟨.hbm, 76, rfl⟩
abbrev main_v34 : Ref sig .tc := ⟨.hbm, 77, rfl⟩
abbrev main_v35 : Ref sig .tc := ⟨.hbm, 78, rfl⟩

abbrev nD : Nat := 1
abbrev τ : Topo := Topo.v7x

variable {F : FTy → Type} [FloatOps F]

class Facts₀ : Prop where
  transposes_S256x768_S768x256_1_0 : S256x768.Transposes [1, 0] S768x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  reducesTo_S32768x256_S32768_d1 : S32768x256.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  reducesTo_S504x256_S504_d1 : S504x256.ReducesTo [1] S504
  bcast_S504_S504x1_0 : S504.BroadcastsInDim S504x1 (![0] : Fin 1 → Fin S504x1.rank)
  bcast_S_S504x1 : S_.BroadcastsInDim S504x1 (![] : Fin 0 → Fin S504x1.rank)
  bcast_S504x1_S504x256_0_1 : S504x1.BroadcastsInDim S504x256 (![0, 1] : Fin 2 → Fin S504x256.rank)
  transposes_S504x256_S256x504_1_0 : S504x256.Transposes [1, 0] S256x504
  bcast_S_S32768x504 : S_.BroadcastsInDim S32768x504 (![] : Fin 0 → Fin S32768x504.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  bcast_S504x256_S504x1x256_0_2 : S504x256.BroadcastsInDim S504x1x256 (![0, 2] : Fin 2 → Fin S504x1x256.rank)
  bcast_S504x256_S1x504x256_1_2 : S504x256.BroadcastsInDim S1x504x256 (![1, 2] : Fin 2 → Fin S1x504x256.rank)
  bcast_S504x1x256_S504x504x256_0_1_2 : S504x1x256.BroadcastsInDim S504x504x256 (![0, 1, 2] : Fin 3 → Fin S504x504x256.rank)
  bcast_S1x504x256_S504x504x256_0_1_2 : S1x504x256.BroadcastsInDim S504x504x256 (![0, 1, 2] : Fin 3 → Fin S504x504x256.rank)
  reducesTo_S504x504x256_S504x504_d2 : S504x504x256.ReducesTo [2] S504x504
  bcast_S_S32768 : S_.BroadcastsInDim S32768 (![] : Fin 0 → Fin S32768.rank)
  concatenates_S32768x1_S32768x504_S32768x505_d1 : Shape.Concatenates [S32768x1, S32768x504] S32768x505 1
  dot_S32768x768_S768x256_S32768x256_1_0_0_1_n_n_wf : DotDims.WF S32768x768 S768x256 S32768x256 [1] [0] [0] [1] [] []
  dot_S32768x256_S256x504_S32768x504_1_0_0_1_n_n_wf : DotDims.WF S32768x256 S256x504 S32768x504 [1] [0] [0] [1] [] []
  gather_S32768x504_S32768x1x1_S32768x1_n_1_0_0_1_2_11_wf : GatherDims.WF S32768x504 S32768x1x1 S32768x1 [] [1] [0] [1] [0] 2 ![1, 1]
  gather_S504x504_S32768x1_S32768x504_1_0_n_n_0_1_1504_wf : GatherDims.WF S504x504 S32768x1 S32768x504 [1] [0] [] [0] [] 1 ![1, 504]

variable [Facts₀]

def dot_S32768x768_S768x256_S32768x256_1_0_0_1_n_n : DotDims S32768x768 S768x256 S32768x256 where
  lhsContracting := [1]
  rhsContracting := [0]
  lhsNonContracting := [0]
  rhsNonContracting := [1]
  lhsBatch := []
  rhsBatch := []
  wf := dot_S32768x768_S768x256_S32768x256_1_0_0_1_n_n_wf
def dot_S32768x256_S256x504_S32768x504_1_0_0_1_n_n : DotDims S32768x256 S256x504 S32768x504 where
  lhsContracting := [1]
  rhsContracting := [0]
  lhsNonContracting := [0]
  rhsNonContracting := [1]
  lhsBatch := []
  rhsBatch := []
  wf := dot_S32768x256_S256x504_S32768x504_1_0_0_1_n_n_wf
def gather_S32768x504_S32768x1x1_S32768x1_n_1_0_0_1_2_11 : GatherDims S32768x504 S32768x1x1 S32768x1 where
  offsetDims := []
  collapsedSliceDims := [1]
  operandBatchingDims := [0]
  startIndicesBatchingDims := [0]
  startIndexMap := [1]
  indexVectorDim := 2
  sliceSizes := ![1, 1]
  wf := gather_S32768x504_S32768x1x1_S32768x1_n_1_0_0_1_2_11_wf
def gather_S504x504_S32768x1_S32768x504_1_0_n_n_0_1_1504 : GatherDims S504x504 S32768x1 S32768x504 where
  offsetDims := [1]
  collapsedSliceDims := [0]
  operandBatchingDims := []
  startIndicesBatchingDims := []
  startIndexMap := [0]
  indexVectorDim := 1
  sliceSizes := ![1, 504]
  wf := gather_S504x504_S32768x1_S32768x504_1_0_n_n_0_1_1504_wf

class Facts : Prop extends Facts₀ where

variable [Facts]
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.Spec.lean ====
/-
  The result both programs compute, as ONE function of the five argument arrays, on the extended reals.

  Arguments: x : [32768, 768] (tokens by encoder features), label : [32768] (32-bit words), w : [256, 768] and
  b : [256] (a linear projection), e : [504, 256] (one embedding per label).

  For a token t:  proj t k = (sum over d of x[t,d] * w[k,d]) + b[k]   is the projected token; its Euclidean norm,
  and each embedding's, is clamped below by a small constant eps; the cosine of token t and embedding c is the sum
  over k of (proj t k / norm t) * (e[c,k] / norm c); the logit is that cosine divided by the temperature 0.1 (read as
  the exact value of its 32-bit pattern).  Two embeddings are "the same row" when they agree entry by entry.

  The result has 505 columns.  Column 0 is the logit of the token's own label.  Column 1 + c is the logit against
  embedding c, except that it is minus infinity where embedding c is the same row as the label's embedding.

  A label word is read as a signed integer and clamped into [0, 503]; under the range condition InRange (every
  label is in [0, 504)) the clamp changes nothing.
-/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx
open scoped Classical

abbrev SX : Shape := ⟨2, ![32768, 768]⟩
abbrev SL : Shape := ⟨1, ![32768]⟩
abbrev SW : Shape := ⟨2, ![256, 768]⟩
abbrev SB : Shape := ⟨1, ![256]⟩
abbrev SE : Shape := ⟨2, ![504, 256]⟩
abbrev SOut : Shape := ⟨2, ![32768, 505]⟩

/-- The small constant both norms are clamped below by: the 32-bit pattern of 1e-8, read exactly. -/
def eps : EReal := Ideal.ofBits .f32 0x322BCC77#32

/-- The temperature: the 32-bit pattern of 0.1, read exactly (it is 13421773 / 134217728). -/
def temperature : EReal := Ideal.ofBits .f32 0x3DCCCCCD#32

section
variable (x : SX.Idx → EReal) (label : SL.Idx → BitVec 32) (w : SW.Idx → EReal) (b : SB.Idx → EReal) (e : SE.Idx → EReal)

/-- The projected token: row t of x times the transpose of w, plus b. -/
def proj (t : Fin 32768) (k : Fin 256) : EReal := (∑ d : Fin 768, x (ix2 t d) * w (ix2 k d)) + b (ix1 k)

/-- The Euclidean norm of the projected token, clamped below by eps. -/
def projNorm (t : Fin 32768) : EReal := max (Ideal.sqrt (∑ k : Fin 256, proj x w b t k * proj x w b t k)) eps

/-- The Euclidean norm of embedding c, clamped below by eps. -/
def embNorm (c : Fin 504) : EReal := max (Ideal.sqrt (∑ k : Fin 256, e (ix2 c k) * e (ix2 c k))) eps

/-- The cosine of the projected token t and embedding c. -/
def cosine (t : Fin 32768) (c : Fin 504) : EReal :=
  ∑ k : Fin 256, Ideal.div (proj x w b t k) (projNorm x w b t) * Ideal.div (e (ix2 c k)) (embNorm e c)

/-- The logit: the cosine divided by the temperature. -/
def logit (t : Fin 32768) (c : Fin 504) : EReal := Ideal.div (cosine x w b e t c) temperature

/-- Embeddings a and c agree entry by entry. -/
def SameRow (a c : Fin 504) : Prop := ∀ k : Fin 256, e (ix2 a k) = e (ix2 c k)

/-- Token t's label, read signed and clamped into [0, 503]. -/
def labelAt (t : Fin 32768) : Fin 504 := ⟨min (label (ix1 t)).toInt.toNat 503, by omega⟩

/-- Every label is in [0, 504) as a signed integer. -/
def InRange : Prop := ∀ t : Fin 32768, 0 ≤ (label (ix1 t)).toInt ∧ (label (ix1 t)).toInt < 504

/-- The result at row t, column j. -/
def Gat (t : Fin 32768) (j : Fin 505) : EReal :=
  if h : j.val = 0 then logit x w b e t (labelAt label t)
  else if SameRow e (labelAt label t) ⟨j.val - 1, by omega⟩ then ⊥
  else logit x w b e t ⟨j.val - 1, by omega⟩

/-- The result array. -/
def G : SOut.Idx → EReal := fun i => Gat x label w b e ⟨(i 0).val, idx2_lt0 i⟩ ⟨(i 1).val, idx2_lt1 i⟩

theorem G_ix2 (t : Fin 32768) (j : Fin 505) : G x label w b e (ix2 t j) = Gat x label w b e t j := rfl

/-- Under the range condition the clamped label is the label word's value. -/
theorem labelAt_val (h : InRange label) (t : Fin 32768) : (labelAt label t).val = (label (ix1 t)).toNat := by
  have ht := h t
  have hnn : 0 ≤ (label (ix1 t)).toInt := ht.1
  have hlt : (label (ix1 t)).toInt < 504 := ht.2
  have htoNat : (label (ix1 t)).toInt = ((label (ix1 t)).toNat : Int) := by
    rw [BitVec.toInt_eq_toNat_cond] at hnn hlt ⊢
    split at hnn <;> omega
  show min (label (ix1 t)).toInt.toNat 503 = _
  rw [htoNat] at hlt ⊢
  simp only [Int.toNat_natCast]
  omega

end

end Cert.Spec

end
-- ==== Proof.Consts.lean ====
/-
  The float constants the two programs spell, as the extended reals their bit patterns denote.

  Stated once, here: the zero that sums and products start from, the threshold one half, minus infinity (what a
  masked entry is filled with), and the temperature 0.1, whose 32-bit pattern denotes exactly 13421773 / 134217728.
  The small constant the norms are clamped by is the same pattern in both programs and is never evaluated.
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern of 0.5 denotes one half. -/
theorem ofBits_half : Ideal.ofBits .f32 0x3F000000#32 = (((1 : ℝ) / 2 : ℝ) : EReal) := by
  simp [Ideal.ofBits, Ideal.ieee, -EReal.coe_mul]; norm_num

/-- The pattern of -inf denotes minus infinity. -/
theorem ofBits_neg_inf : Ideal.ofBits .f32 0xFF800000#32 = ⊥ := by
  simp [Ideal.ofBits, Ideal.ieee]

/-- The pattern of 0.1 denotes 13421773 / 134217728 exactly. -/
theorem ofBits_temperature : Ideal.ofBits .f32 0x3DCCCCCD#32 = (((13421773 : ℝ) / 134217728 : ℝ) : EReal) := by
  simp [Ideal.ofBits, Ideal.ieee, -EReal.coe_mul]; norm_num

end Cert.Consts

end
-- ==== Proof.LibGatherRowTake.lean ====
/-
  A gather that takes ONE entry from EACH ROW of a table, read at an index.

  For a table x of shape [N, K] and start indices idx of shape [N, 1, 1], the gather whose operand axis 0 is a
  batching axis (paired with axis 0 of the start indices), whose operand axis 1 is collapsed and named by the
  start index, with slice sizes [1, 1] and the index vector on axis 2, has result shape [N, 1]. Its entry (b, 0)
  is x at row b and at the column idx[b, 0, 0] read as a signed integer and clamped into [0, K - 1]: the row
  comes from the batching coordinate, the column from the clamped start, and there is no offset.
  This is what "take along axis 1" of a [N, K] table at an [N, 1] array of positions lowers to.
-/
import Idealize.ShloMosaic.PureOps.ShapeOps
import Idealize.ShloMosaic.Lib.ValueIdx

namespace Idealize.ShloMosaic.ValueIdx

open Idealize.ShloMosaic

section RowTake
variable {α : Type}

/-- The dimension numbers of the row-wise take for a table [N, K], start indices [N, 1, 1] and result [N, 1];
    their conditions are decided on a program's literal shapes. -/
abbrev rowTakeDims (N K : Nat)
    (wf : GatherDims.WF ⟨2, ![N, K]⟩ ⟨3, ![N, 1, 1]⟩ ⟨2, ![N, 1]⟩ [] [1] [0] [1] [0] 2 ![1, 1]) :
    GatherDims ⟨2, ![N, K]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index [b, 0, 0] of result index (b, 0). -/
abbrev rowTakeIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- THE ROW-WISE TAKE READ AT (b, 0): the table at row b, column the start index idx[b, 0, 0] read signed and
    clamped into [0, K - 1]. -/
theorem gather_rowTake_apply {N K w : Nat} (hK : 0 < K)
    (wf : GatherDims.WF ⟨2, ![N, K]⟩ ⟨3, ![N, 1, 1]⟩ ⟨2, ![N, 1]⟩ [] [1] [0] [1] [0] 2 ![1, 1])
    (x : (⟨2, ![N, K]⟩ : Shape).Idx → α) (idx : IVec ⟨3, ![N, 1, 1]⟩ w) (y : (⟨2, ![N, 1]⟩ : Shape).Idx) :
    Host.gather (rowTakeDims N K wf) x idx y
      = x (ix2 (⟨(y 0).val, idx2_lt0 y⟩ : Fin N) (⟨min (idx (rowTakeIdx y)).toInt.toNat (K - 1), by omega⟩ : Fin K)) := by
  unfold Host.gather
  congr 1
  funext a
  refine Fin.ext ?_
  show (rowTakeDims N K wf).start y idx a + (rowTakeDims N K wf).batchCoord y a + (rowTakeDims N K wf).offCoord y a = _
  match a with
  | ⟨0, _⟩ =>
    -- the row: no start on a batching axis, no offset; the batching coordinate is the result's row
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 2) ∈ (rowTakeDims N K wf).operandBatchingDims from List.mem_singleton.mpr rfl)]
    rfl
  | ⟨1, _⟩ =>
    -- the column: the clamped start; axis 1 is neither a batching nor an offset axis
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (rowTakeDims N K wf).startIndexMap from List.mem_singleton.mpr rfl)]
    have hsi : (rowTakeDims N K wf).siIdx y ⟨List.idxOf (⟨1, by decide⟩ : Fin 2) (rowTakeDims N K wf).startIndexMap,
        List.idxOf_lt_length_iff.2 (List.mem_singleton.mpr rfl)⟩ = rowTakeIdx y := by
      funext b; refine Fin.ext ?_
      match b with
      | ⟨0, _⟩ => rfl
      | ⟨1, _⟩ => exact Nat.lt_one_iff.mp (Fin.isLt _)  -- a coordinate on a unit axis is 0
      | ⟨2, _⟩ => rfl
    rw [hsi]
    rfl

end RowTake

end Idealize.ShloMosaic.ValueIdx
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.LibReduceAnd.lean ====
/-
  An all-reduce by "and" over ones is one.

  The library reads a 1 result back (every operand bit that reduces into it was 1). This is the other direction:
  when the initial bit is 1 and every operand bit that reduces into result index j is 1, the result at j is 1.
  A host reduce is a left fold from the initial value over the operand positions that reduce into j, so the
  statement is the fold's.
-/
import Idealize.ShloMosaic.Lib.ReduceAll

namespace Idealize.ShloMosaic

namespace IntOp

/-- A left fold by "and" from 1 over bits that are all 1 is 1. -/
theorem foldl_andi_of_forall {ι : Type} (f : ι → BitVec 1) :
    ∀ (l : List ι) (init : BitVec 1), init = 1#1 → (∀ n ∈ l, f n = 1#1) → l.foldl (fun r n => andi r (f n)) init = 1#1
  | [], _, h, _ => h
  | a :: l, _, h, hl =>
    foldl_andi_of_forall f l _ (andi_eq_one.2 ⟨h, hl a List.mem_cons_self⟩) (fun n hn => hl n (List.mem_cons_of_mem _ hn))

end IntOp

namespace Host

variable {s t u : Shape} {axes : List (Fin s.rank)}

/-- A reduce by "and" from the bit 1 is 1 at j when every operand bit that reduces into j is 1. -/
theorem reduce_andi_of_forall (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  unfold Host.reduce
  refine IntOp.foldl_andi_of_forall (fun n => x (s.rowMajor.symm n)) _ _ hinit (fun n hn => hx _ ?_)
  exact of_decide_eq_true (List.mem_filter.1 hn).2

end Host

end Idealize.ShloMosaic
-- ==== Proof.RefIsSpec.lean ====
/-
  The reference computes the specification: under the range condition on the labels, the reference's result array,
  as a function of the five argument arrays, is Spec.G index by index.

  The reference is read one operation at a time. Its float stages give, at (t, c), the projected token, the two
  clamped norms, the cosine and the logit. Its integer stages give, under the range condition, the label itself
  as the position of both lookups (the wrap of a negative position is not taken, and the clamp into [0, 503]
  changes nothing), the in-bounds flag 1, and the row-equality table of the embeddings. The result joins the
  own-label logit (column 0) with the masked logits (columns 1 to 504).
-/
import proofs.«426633_j30193620091605_2_alg».proof.Proof.RefRead
import proofs.«426633_j30193620091605_2_alg».proof.Proof.Spec
import proofs.«426633_j30193620091605_2_alg».proof.Proof.Consts
import proofs.«426633_j30193620091605_2_alg».proof.Proof.LibGatherRowTake
import proofs.«426633_j30193620091605_2_alg».proof.Proof.LibIndexed
import proofs.«426633_j30193620091605_2_alg».proof.Proof.LibReduceAnd

noncomputable section

namespace Cert.RefIsSpec

open Idealize.ShloMosaic Idealize.ShloMosaic.ValueIdx Cert.ReferenceIdeal Cert.ReferenceIdeal.ReadP
open Cert.ReferenceIdeal.Gen

section
variable (x : Cert.Spec.SX.Idx → EReal) (label : Cert.Spec.SL.Idx → BitVec 32) (w : Cert.Spec.SW.Idx → EReal)
    (b : Cert.Spec.SB.Idx → EReal) (e : Cert.Spec.SE.Idx → EReal)

/-- The projected token: entry (t, k) of the projection stage. -/
theorem proj_at (t : Fin 32768) (k : Fin 256) :
    val_main_v4 (F := Ideal) x w b (ix2 t k) = Cert.Spec.proj x w b t k := by
  rw [val_main_v4_apply, val_main_v1_apply, val_main_v3_apply, val_main_v2_apply, Ideal.addf_def]
  delta Cert.Spec.proj
  refine congrArg₂ (· + ·) (Finset.sum_congr rfl fun d _ => ?_) ?_
  · rw [val_main_v0_apply]
    refine congrArg₂ (· * ·) (congrArg x ?_) (congrArg w ?_)
    · funext a; match a with | ⟨0, _⟩ => rfl | ⟨1, _⟩ => rfl
    · funext a; match a with | ⟨0, _⟩ => rfl | ⟨1, _⟩ => rfl
  · refine congrArg b ?_
    funext a; match a with | ⟨0, _⟩ => rfl

/-- The clamped norm of the projected token t. -/
theorem projNorm_at (t : Fin 32768) (q : Fin 1) :
    val_main_v7 (F := Ideal) x w b (ix2 t q) = Cert.Spec.projNorm x w b t := by
  rw [val_main_v7_apply, val_main_v5_apply, val_main_call0_v2_apply, val_main_call0_v1_apply, val_main_v6_apply,
    val_main_cst_apply, val_main_call0_cst_apply, Ideal.maximumf_def, Ideal.hostUnary_sqrt_def, Ideal.ofBits_def,
    Ideal.ofBits_def, Cert.Consts.ofBits_zero, zero_add]
  delta Cert.Spec.projNorm Cert.Spec.eps
  refine congrArg (fun s => max (Ideal.sqrt s) _) (Finset.sum_congr rfl fun k _ => ?_)
  rw [val_main_call0_v0_apply, Ideal.mulf_def]
  have hi : idx_main_call0_v1 (idx_main_call0_v2 (ix2 t q)) k = ix2 t k := by
    funext a; match a with | ⟨0, _⟩ => rfl | ⟨1, _⟩ => rfl
  rw [hi, proj_at]

/-- The clamped norm of embedding c. -/
theorem embNorm_at (c : Fin 504) (q : Fin 1) :
    val_main_v12 (F := Ideal) e (ix2 c q) = Cert.Spec.embNorm e c := by
  rw [val_main_v12_apply, val_main_v10_apply, val_main_call1_v2_apply, val_main_call1_v1_apply, val_main_v11_apply,
    val_main_cst_0_apply, val_main_call1_cst_apply, Ideal.maximumf_def, Ideal.hostUnary_sqrt_def, Ideal.ofBits_def,
    Ideal.ofBits_def, Cert.Consts.ofBits_zero, zero_add]
  delta Cert.Spec.embNorm Cert.Spec.eps
  refine congrArg (fun s => max (Ideal.sqrt s) _) (Finset.sum_congr rfl fun k _ => ?_)
  rw [val_main_call1_v0_apply, Ideal.mulf_def]
  have hi : idx_main_call1_v1 (idx_main_call1_v2 (ix2 c q)) k = ix2 c k := by
    funext a; match a with | ⟨0, _⟩ => rfl | ⟨1, _⟩ => rfl
  rw [hi]

/-- The logit of token t against embedding c: entry (t, c) of the quotient by the temperature. -/
theorem logit_at (t : Fin 32768) (c : Fin 504) :
    val_main_v18 (F := Ideal) x w b e (ix2 t c) = Cert.Spec.logit x w b e t c := by
  rw [val_main_v18_apply, val_main_v16_apply, val_main_v17_apply, val_main_cst_1_apply, Ideal.hostDivf_def,
    Ideal.ofBits_def]
  delta Cert.Spec.logit Cert.Spec.temperature Cert.Spec.cosine
  refine congrArg (fun s => Ideal.div s (Ideal.ofBits .f32 0x3DCCCCCD#32)) (Finset.sum_congr rfl fun k _ => ?_)
  have h1 : lidx_main_v16 (ix2 t c) k = ix2 t k := by
    funext a; match a with | ⟨0, _⟩ => rfl | ⟨1, _⟩ => rfl
  have h2 : idx_main_v15 (ridx_main_v16 (ix2 t c) k) = ix2 c k := by
    funext a; match a with | ⟨0, _⟩ => rfl | ⟨1, _⟩ => rfl
  have h3 : idx_main_v8 (ix2 t k) = ix2 t (0 : Fin 1) := by
    funext a; match a with | ⟨0, _⟩ => rfl | ⟨1, _⟩ => rfl
  have h4 : idx_main_v13 (ix2 c k) = ix2 c (0 : Fin 1) := by
    funext a; match a with | ⟨0, _⟩ => rfl | ⟨1, _⟩ => rfl
  rw [val_main_v9_apply, val_main_v15_apply, val_main_v14_apply, val_main_v8_apply, val_main_v13_apply,
    Ideal.hostDivf_def, Ideal.hostDivf_def, h1, h2, h3, h4, proj_at, projNorm_at, embNorm_at]

/-- A label in range, read signed, is not negative: the wrap of a negative position is not taken. -/
theorem wrap_id (hr : Cert.Spec.InRange label) (t : Fin 32768) (z : BitVec 32) :
    Scalar.select (IntOp.cmpi .slt (label (ix1 t)) 0#32) z (label (ix1 t)) = label (ix1 t) := by
  have h0 : ¬ IntOp.cmpi .slt (label (ix1 t)) 0#32 = 1#1 := by
    rw [IntOp.cmpi_slt]
    have := (hr t).1
    simp only [BitVec.toInt_zero]
    omega
  rw [eq_zero_of_ne_one h0, select_zero]

/-- The positions array of the take: entry (t, 0, 0) is token t's label. -/
theorem pos_at (hr : Cert.Spec.InRange label) (t : Fin 32768) (p q : Fin 1) :
    val_main_call2_v5 (F := Ideal) label (ix3 t p q) = label (ix1 t) := by
  rw [val_main_call2_v5_apply, val_main_call2_v4_apply, val_main_call2_v1_apply, val_main_v19_apply,
    val_main_call2_v0_apply, val_main_call2_c_apply]
  have hi : idx_main_v19 (idx_main_call2_v5 (ix3 t p q)) = ix1 t := by
    funext a
    match a with
    | ⟨0, _⟩ =>
      refine Fin.ext ?_
      show ((t.val * 1 + p.val) * 1 + q.val) / 1 = t.val
      have := p.isLt; have := q.isLt; omega
  rw [hi]
  exact wrap_id label hr t _

/-- The row index of the mask lookup: entry (t, 0) is token t's label. -/
theorem row_at (hr : Cert.Spec.InRange label) (t : Fin 32768) (q : Fin 1) :
    val_main_v32 (F := Ideal) label (ix2 t q) = label (ix1 t) := by
  rw [val_main_v32_apply, val_main_v31_apply, val_main_v28_apply, val_main_v27_apply, val_main_c_2_apply]
  have hi : idx_main_v32 (ix2 t q) = ix1 t := by
    funext a; match a with | ⟨0, _⟩ => rfl
  rw [hi]
  exact wrap_id label hr t _

/-- The in-bounds flag of the take is 1 at every token: a label in range is between 0 and 503. -/
theorem inb_at (hr : Cert.Spec.InRange label) (t : Fin 32768) (q : Fin 1) :
    val_main_call2_v12 (F := Ideal) label (ix2 t q) = 1#1 := by
  delta val_main_call2_v12
  refine Host.reduce_andi_of_forall _ _ reducesTo_S32768x1x1_S32768x1_d2 h_S_ _ rfl (fun i hi => ?_)
  obtain ⟨a, p, q', rfl⟩ : ∃ (a : Fin 32768) (p q' : Fin 1), i = ix3 a p q' := ⟨i 0, i 1, i 2, eq_ix3 i⟩
  have h0 : a.val = t.val := by
    have h := Shape.ReducesTo.drop_apply_val_of_eq reducesTo_S32768x1x1_S32768x1_d2 (ix3 a p q') 0 0
    rw [hi] at h
    exact h.symm
  obtain rfl : a = t := Fin.ext h0
  rw [val_main_call2_v11_apply, val_main_call2_v7_apply, val_main_call2_v10_apply, pos_at label hr,
    val_main_call2_v6_apply, val_main_call2_c_2_apply, val_main_call2_v9_apply, val_main_call2_v8_apply,
    val_main_call2_c_1_apply]
  have hl := hr a
  refine IntOp.andi_eq_one.2 ⟨IntOp.cmpi_sge.2 ?_, IntOp.cmpi_sle.2 ?_⟩
  · rw [BitVec.toInt_zero]; exact hl.1
  · have h503 : (503#32 : BitVec 32).toInt = 503 := by decide
    rw [h503]; omega

/-- The take along the label: entry (t, 0) is the logit of token t against its own label's embedding. -/
theorem take_at (hr : Cert.Spec.InRange label) (t : Fin 32768) (q : Fin 1) :
    val_main_call2_v13 (F := Ideal) x label w b e (ix2 t q)
      = val_main_v18 (F := Ideal) x w b e (ix2 t (Cert.Spec.labelAt label t)) := by
  delta val_main_call2_v13
  refine (gather_rowTake_apply (N := 32768) (K := 504) (by decide)
    Cert.ReferenceIdeal.Gen.gather_S32768x504_S32768x1x1_S32768x1_n_1_0_0_1_2_11_wf
    (val_main_v18 (F := Ideal) x w b e) (val_main_call2_v5 (F := Ideal) label) (ix2 t q)).trans ?_
  have hi : rowTakeIdx (ix2 t q) = ix3 t (0 : Fin 1) (0 : Fin 1) := by
    funext a; match a with | ⟨0, _⟩ => rfl | ⟨1, _⟩ => rfl | ⟨2, _⟩ => rfl
  refine congrArg (val_main_v18 (F := Ideal) x w b e) ?_
  funext a
  match a with
  | ⟨0, _⟩ => rfl
  | ⟨1, _⟩ =>
    refine Fin.ext ?_
    show min (val_main_call2_v5 (F := Ideal) label (rowTakeIdx (ix2 t q))).toInt.toNat (504 - 1)
      = min (label (ix1 t)).toInt.toNat 503
    rw [hi, pos_at label hr]

/-- The equality bit of two embedding entries is 1 exactly when the entries are equal. -/
theorem eqbit_iff (a c : Fin 504) (k : Fin 256) :
    val_main_v25 (F := Ideal) e (ix3 a c k) = 1#1 ↔ e (ix2 a k) = e (ix2 c k) := by
  have h1 : idx_main_v21 (idx_main_v23 (ix3 a c k)) = ix2 a k := by
    funext d; match d with | ⟨0, _⟩ => rfl | ⟨1, _⟩ => rfl
  have h2 : idx_main_v22 (idx_main_v24 (ix3 a c k)) = ix2 c k := by
    funext d; match d with | ⟨0, _⟩ => rfl | ⟨1, _⟩ => rfl
  rw [val_main_v25_apply, val_main_v23_apply, val_main_v21_apply, val_main_v24_apply, val_main_v22_apply,
    Ideal.cmpf_def, h1, h2]
  show BitVec.ofBool (decide (e (ix2 a k) = e (ix2 c k))) = 1#1 ↔ e (ix2 a k) = e (ix2 c k)
  have key : ∀ bb : Bool, BitVec.ofBool bb = 1#1 ↔ bb = true := by decide
  rw [key, decide_eq_true_eq]

/-- The row-equality table: entry (a, c) is 1 exactly when embeddings a and c agree entry by entry. -/
theorem same_iff (a c : Fin 504) :
    val_main_v26 (F := Ideal) e (ix2 a c) = 1#1 ↔ Cert.Spec.SameRow e a c := by
  delta val_main_v26
  constructor
  · intro h k
    have hd : reducesTo_S504x504x256_S504x504_d2.drop (ix3 a c k) = ix2 a c := by
      funext d
      refine Fin.ext ?_
      match d with
      | ⟨0, _⟩ => exact Shape.ReducesTo.drop_apply_val_of_eq reducesTo_S504x504x256_S504x504_d2 (ix3 a c k) 0 0
      | ⟨1, _⟩ => exact Shape.ReducesTo.drop_apply_val_of_eq reducesTo_S504x504x256_S504x504_d2 (ix3 a c k) 1 1
    exact (eqbit_iff e a c k).1 (Host.reduce_andi_eq_one _ _ reducesTo_S504x504x256_S504x504_d2 h_S_ _ h (ix3 a c k) hd)
  · intro h
    refine Host.reduce_andi_of_forall _ _ reducesTo_S504x504x256_S504x504_d2 h_S_ _ rfl (fun i hi => ?_)
    obtain ⟨a', c', k, rfl⟩ : ∃ (a' c' : Fin 504) (k : Fin 256), i = ix3 a' c' k := ⟨i 0, i 1, i 2, eq_ix3 i⟩
    have h0 : a'.val = a.val := by
      have h := Shape.ReducesTo.drop_apply_val_of_eq reducesTo_S504x504x256_S504x504_d2 (ix3 a' c' k) 0 0
      rw [hi] at h
      exact h.symm
    have h1 : c'.val = c.val := by
      have h := Shape.ReducesTo.drop_apply_val_of_eq reducesTo_S504x504x256_S504x504_d2 (ix3 a' c' k) 1 1
      rw [hi] at h
      exact h.symm
    obtain rfl : a' = a := Fin.ext h0
    obtain rfl : c' = c := Fin.ext h1
    exact (eqbit_iff e a' c' k).2 (h k)

/-- The mask: entry (t, c) is the row-equality table at (token t's label, c). -/
theorem mask_at (hr : Cert.Spec.InRange label) (t : Fin 32768) (c : Fin 504) :
    val_main_v33 (F := Ideal) label e (ix2 t c)
      = val_main_v26 (F := Ideal) e (ix2 (Cert.Spec.labelAt label t) c) := by
  delta val_main_v33
  refine (Cert.Rgcn.Lib.gather_rows_apply (N := 504) (K := 504) (R := 32768) (by decide)
    gather_S504x504_S32768x1_S32768x504_1_0_n_n_0_1_1504
    Cert.ReferenceIdeal.Gen.gather_S504x504_S32768x1_S32768x504_1_0_n_n_0_1_1504_wf rfl
    (val_main_v26 (F := Ideal) e) (val_main_v32 (F := Ideal) label) t c).trans ?_
  refine congrArg (fun r => val_main_v26 (F := Ideal) e (ix2 r c)) (Fin.ext ?_)
  show min (val_main_v32 (F := Ideal) label (ix2 t (0 : Fin 1))).toInt.toNat (504 - 1)
    = min (label (ix1 t)).toInt.toNat 503
  rw [row_at label hr]

/-- Column 0 of the result is the first piece of the join. -/
theorem out_col_zero (t : Fin 32768) :
    val_main_v35 (F := Ideal) x label w b e (ix2 t (0 : Fin 505))
      = val_main_v20 (F := Ideal) x label w b e (ix2 t (0 : Fin 1)) := by
  delta val_main_v35
  exact concatenate_pair_apply_left (t := S32768x505) (s₁ := S32768x1) (s₂ := S32768x504) (1 : Fin 2) _ _
    concatenates_S32768x1_S32768x504_S32768x505_d1
    (ix2 t (0 : Fin 505)) rfl (ix2 t (0 : Fin 1)) (fun d => match d with | ⟨0, _⟩ => rfl | ⟨1, _⟩ => rfl)

/-- Column 1 + c of the result is column c of the second piece of the join. -/
theorem out_col_succ (t : Fin 32768) (c : Fin 504) :
    val_main_v35 (F := Ideal) x label w b e (ix2 t (⟨c.val + 1, by omega⟩ : Fin 505))
      = val_main_v34 (F := Ideal) x label w b e (ix2 t c) := by
  delta val_main_v35
  exact concatenate_pair_apply_right (t := S32768x505) (s₁ := S32768x1) (s₂ := S32768x504) (1 : Fin 2) _ _
    concatenates_S32768x1_S32768x504_S32768x505_d1
    (ix2 t (⟨c.val + 1, by omega⟩ : Fin 505)) rfl rfl (ix2 t c)
    (fun d hd => match d, hd with
      | ⟨0, _⟩, _ => rfl
      | ⟨1, _⟩, hd => absurd rfl hd)
    rfl

/-- The result at column 0: the logit of the token's own label. -/
theorem ref_col_zero (hr : Cert.Spec.InRange label) (t : Fin 32768) :
    val_main_v35 (F := Ideal) x label w b e (ix2 t (0 : Fin 505))
      = Cert.Spec.logit x w b e t (Cert.Spec.labelAt label t) := by
  rw [out_col_zero, val_main_v20_apply, inb_at label hr, select_one, take_at x label w b e hr, logit_at]

/-- The result at column 1 + c where embedding c is the label's row: minus infinity. -/
theorem ref_col_same (hr : Cert.Spec.InRange label) (t : Fin 32768) (c : Fin 504)
    (h : Cert.Spec.SameRow e (Cert.Spec.labelAt label t) c) :
    val_main_v35 (F := Ideal) x label w b e (ix2 t (⟨c.val + 1, by omega⟩ : Fin 505)) = ⊥ := by
  rw [out_col_succ, val_main_v34_apply, mask_at label e hr, (same_iff e _ c).2 h, select_one,
    val_main_call3_v1_apply, val_main_call3_v0_apply, val_main_cst_4_apply, Ideal.ofBits_def,
    Cert.Consts.ofBits_neg_inf]

/-- The result at column 1 + c where embedding c is not the label's row: the logit against embedding c. -/
theorem ref_col_diff (hr : Cert.Spec.InRange label) (t : Fin 32768) (c : Fin 504)
    (h : ¬ Cert.Spec.SameRow e (Cert.Spec.labelAt label t) c) :
    val_main_v35 (F := Ideal) x label w b e (ix2 t (⟨c.val + 1, by omega⟩ : Fin 505))
      = Cert.Spec.logit x w b e t c := by
  have h0 : ¬ val_main_v26 (F := Ideal) e (ix2 (Cert.Spec.labelAt label t) c) = 1#1 :=
    fun h1 => h ((same_iff e _ c).1 h1)
  rw [out_col_succ, val_main_v34_apply, mask_at label e hr, eq_zero_of_ne_one h0, select_zero, logit_at]

end

/-- The reference's result is the specification. -/
theorem ref_eq (x : Cert.Spec.SX.Idx → EReal) (label : Cert.Spec.SL.Idx → BitVec 32) (w : Cert.Spec.SW.Idx → EReal)
    (b : Cert.Spec.SB.Idx → EReal) (e : Cert.Spec.SE.Idx → EReal) (hr : Cert.Spec.InRange label) :
    val_main_v35 (F := Ideal) x label w b e = Cert.Spec.G x label w b e := by
  funext i
  obtain ⟨t, j, rfl⟩ : ∃ (t : Fin 32768) (j : Fin 505), i = ix2 t j := ⟨i 0, i 1, eq_ix2 i⟩
  rw [Cert.Spec.G_ix2]
  delta Cert.Spec.Gat
  by_cases h0 : j.val = 0
  · obtain rfl : j = 0 := Fin.ext h0
    rw [dif_pos h0]
    exact ref_col_zero x label w b e hr t
  · rw [dif_neg h0]
    obtain ⟨c, rfl⟩ : ∃ c : Fin 504, j = ⟨c.val + 1, by omega⟩ :=
      ⟨⟨j.val - 1, by omega⟩, Fin.ext (by show j.val = j.val - 1 + 1; omega)⟩
    have hc : (⟨(⟨c.val + 1, by omega⟩ : Fin 505).val - 1, by omega⟩ : Fin 504) = c := Fin.ext (by simp)
    rw [hc]
    by_cases hs : Cert.Spec.SameRow e (Cert.Spec.labelAt label t) c
    · rw [if_pos hs]
      exact ref_col_same x label w b e hr t c hs
    · rw [if_neg hs]
      exact ref_col_diff x label w b e hr t c hs

end Cert.RefIsSpec

end
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.KernelHost.lean ====
/-
  What the kernel's program hands to its one launch: the arrays the launch's windows stage, as the host operations
  before it leave them, read entry by entry from the argument arrays.

  The transposed projection, the bias as a row and the labels as a column are re-indexings of arguments.  The
  embeddings are first padded from 504 to 512 rows; at a real row (below 504) the padded array is the embeddings.
  The normalised embeddings are then divided by their clamped norms and transposed: at a real column c it is
  e[c, k] / (norm of embedding c).  The table of equal rows is 1 where two padded rows agree entry by entry and 0
  elsewhere: at two real rows that is whether the two embeddings are the same row.
-/
import proofs.«426633_j30193620091605_2_alg».proof.Proof.Gen.KernelIdeal.Frame
import proofs.«426633_j30193620091605_2_alg».proof.Proof.Spec
import proofs.«426633_j30193620091605_2_alg».proof.Proof.Consts
import proofs.«426633_j30193620091605_2_alg».proof.Proof.LibReshape
import proofs.«426633_j30193620091605_2_alg».proof.Proof.LibReduceAnd
import Idealize.ShloMosaic.PureOps.Ideal.Laws
import Idealize.ShloMosaic.Lib.KernelVsHost
import Idealize.ShloMosaic.Lib.IdealHost
import Idealize.ShloMosaic.Lib.WordArith

noncomputable section

namespace Cert.KernelHost

open Idealize.ShloMosaic Idealize.ShloMosaic.TcCoe Idealize.ShloMosaic.ValueIdx Idealize.SL.Sem Cert.KernelIdeal Cert.KernelIdeal.Gen
open scoped Classical

variable (m : (ℓ : Loc nD τ sig) → Buf (Elt Ideal) ℓ)

/-- The argument arrays of core c, at their plain function types. -/
abbrev argX (c : Dev nD) : Cert.Spec.SX.Idx → EReal := m ((c : Thread nD τ).loc main_arg0)
abbrev argL (c : Dev nD) : Cert.Spec.SL.Idx → BitVec 32 := m ((c : Thread nD τ).loc main_arg1)
abbrev argW (c : Dev nD) : Cert.Spec.SW.Idx → EReal := m ((c : Thread nD τ).loc main_arg2)
abbrev argB (c : Dev nD) : Cert.Spec.SB.Idx → EReal := m ((c : Thread nD τ).loc main_arg3)
abbrev argE (c : Dev nD) : Cert.Spec.SE.Idx → EReal := m ((c : Thread nD τ).loc main_arg4)

/-! ## The three re-indexings, as the operations compose them -/

/-- Window 2's array: the projection transposed, then narrowed (which changes nothing on the extended reals). -/
theorem wT_eq (c : Dev nD) :
    (V m c main_v16 : S768x256.Idx → EReal)
      = truncf (F := Ideal) .bf16 (transpose S768x256 [1, 0] (argW m c) transposes_S256x768_S768x256_1_0) bitsLt_bf16_f32 := by
  dsimp only [Gen.V]
  simp only [Gen.hostOps0, Gen.hostOps0_1, Gen.hostOps0_2, Gen.hostOps0_3, List.flatten_cons, List.flatten_nil,
    List.append_nil, List.cons_append, List.nil_append]
  after_results

/-- Window 3's array: the bias reshaped to one row. -/
theorem bias_eq (c : Dev nD) :
    (V m c main_v17 : S1x256.Idx → EReal) = shapeCast S1x256 (argB m c) shapeCasts_S256_S1x256 := by
  dsimp only [Gen.V]
  simp only [Gen.hostOps0, Gen.hostOps0_1, Gen.hostOps0_2, Gen.hostOps0_3, List.flatten_cons, List.flatten_nil,
    List.append_nil, List.cons_append, List.nil_append]
  after_results
  rfl

/-- Window 1's array: the labels reshaped to one column. -/
theorem label_eq (c : Dev nD) :
    (V m c main_v18 : S32768x1.Idx → BitVec 32) = shapeCast S32768x1 (argL m c) shapeCasts_S32768_S32768x1 := by
  dsimp only [Gen.V]
  simp only [Gen.hostOps0, Gen.hostOps0_1, Gen.hostOps0_2, Gen.hostOps0_3, List.flatten_cons, List.flatten_nil,
    List.append_nil, List.cons_append, List.nil_append]
  after_results
  rfl

/-- Window 2's array is the projection transposed. -/
theorem wT_apply (c : Dev nD) (d : Fin 768) (k : Fin 256) :
    (V m c main_v16 : S768x256.Idx → EReal) (ix2 d k) = argW m c (ix2 k d) := by
  rw [wT_eq, truncf_apply]
  -- entry (d, k) of the transpose is entry (k, d) of the operand
  refine transpose_apply _ _ _ _ _ (fun b => ?_)
  fin_cases b <;> rfl

/-- Window 3's array is the bias as one row. -/
theorem bias_apply (c : Dev nD) (k : Fin 256) :
    (V m c main_v17 : S1x256.Idx → EReal) (ix2 (0 : Fin 1) k) = argB m c (ix1 k) := by
  rw [bias_eq]
  exact Cert.Rgcn.Lib.row_of_vec_apply _ _ k

/-- Window 1's array is the labels as one column. -/
theorem label_apply (c : Dev nD) (t : Fin 32768) :
    (V m c main_v18 : S32768x1.Idx → BitVec 32) (ix2 t (0 : Fin 1)) = argL m c (ix1 t) := by
  rw [label_eq]
  exact Cert.Rgcn.Lib.col_of_vec_apply _ _ t

/-! ## The embeddings' side: the padded array, its rows' norms, the normalised rows, the table of equal rows -/

/-- The embeddings padded to 512 rows (the eight new rows hold -1.0). -/
def padE (c : Dev nD) : S512x256.Idx → EReal :=
  pad S512x256 ![0, 0] ![8, 0] ![0, 0] (argE m c) (constant (F := Ideal) S_ .f32 0xBF800000#32) pads_S504x256_S512x256_080_000 h_S_

/-- The Euclidean norm of each padded row, as a column. -/
def normE (c : Dev nD) : S512x1.Idx → EReal :=
  Host.sqrt (F := Ideal) (broadcastInDim S512x1 ![0] bcast_S512_S512x1_0
    (Host.reduceAdd (F := Ideal) (mulf (F := Ideal) (padE m c) (padE m c)) (constant (F := Ideal) S_ .f32 0x00000000#32) reducesTo_S512x256_S512_d1 h_S_))

/-- The padded rows over their clamped norms, transposed. -/
def enTE (c : Dev nD) : S256x512.Idx → EReal :=
  truncf (F := Ideal) .bf16 (transpose S256x512 [1, 0]
    (Host.divf (F := Ideal) (padE m c) (broadcastInDim S512x256 ![0, 1] bcast_S512x1_S512x256_0_1
      (maximumf (F := Ideal) (normE m c) (broadcastInDim S512x1 ![] bcast_S_S512x1 (constant (F := Ideal) S_ .f32 0x322BCC77#32)))))
    transposes_S512x256_S256x512_1_0) bitsLt_bf16_f32

/-- The bit "padded rows a and b agree at every entry", for every pair of rows. -/
def eqBitE (c : Dev nD) : S512x512.Idx → BitVec 1 :=
  Host.reduce IntOp.andi
    (cmpf (F := Ideal) (φ := .f32) .oeq
      (broadcastInDim S512x512x256 ![0, 1, 2] bcast_S512x1x256_S512x512x256_0_1_2
        (broadcastInDim S512x1x256 ![0, 2] bcast_S512x256_S512x1x256_0_2 (padE m c)))
      (broadcastInDim S512x512x256 ![0, 1, 2] bcast_S1x512x256_S512x512x256_0_1_2
        (broadcastInDim S1x512x256 ![1, 2] bcast_S512x256_S1x512x256_1_2 (padE m c))))
    (constantI S_ 1 1#1) reducesTo_S512x512x256_S512x512_d2 h_S_

/-- The padded array, as the operations compose it. -/
theorem v0_eq (c : Dev nD) : (V m c main_v0 : S512x256.Idx → EReal) = padE m c := by
  dsimp only [Gen.V]
  simp only [Gen.hostOps0, Gen.hostOps0_1, Gen.hostOps0_2, Gen.hostOps0_3, List.flatten_cons, List.flatten_nil, List.append_nil, List.cons_append, List.nil_append]
  after_results
  rfl

/-- Window 4's array, as the operations compose it. -/
theorem v7_eq (c : Dev nD) : (V m c main_v7 : S256x512.Idx → EReal) = enTE m c := by
  dsimp only [Gen.V]
  simp only [Gen.hostOps0, Gen.hostOps0_1, Gen.hostOps0_2, Gen.hostOps0_3, List.flatten_cons, List.flatten_nil, List.append_nil, List.cons_append, List.nil_append]
  after_results
  rfl

/-- Window 5's array, as the operations compose it: the bit of equal rows, as a number. -/
theorem v14_eq (c : Dev nD) :
    (V m c main_v14 : S512x512.Idx → EReal) = uitofp (F := Ideal) .bf16 (eqBitE m c) := by
  dsimp only [Gen.V]
  simp only [Gen.hostOps0, Gen.hostOps0_1, Gen.hostOps0_2, Gen.hostOps0_3, List.flatten_cons, List.flatten_nil, List.append_nil, List.cons_append, List.nil_append]
  after_results
  rfl

/-- The host's square root at an index is the extended reals' square root of the entry. -/
theorem hostSqrt_apply {s : Shape} {φ : FTy} (x : FVec Ideal s φ) (i : s.Idx) : Host.sqrt x i = Ideal.sqrt (x i) := rfl

/-- At a real row (below 504) the padded array is the embeddings. -/
theorem padE_apply (c : Dev nD) (r : Fin 504) (k : Fin 256) :
    padE m c (ix2 (⟨r.val, by omega⟩ : Fin 512) k) = argE m c (ix2 r k) := by
  unfold padE
  refine pad_apply_of_inside _ _ _ _ _ _ _ _ (ix2 r k) (fun a => ?_)
  fin_cases a
  · show r.val = 0 + r.val * (0 + 1); omega
  · show k.val = 0 + k.val * (0 + 1); omega

/-- The norm column at a real row: the root of the embedding's sum of squares. -/
theorem normE_apply (c : Dev nD) (r : Fin 504) :
    normE m c (ix2 (⟨r.val, by omega⟩ : Fin 512) (0 : Fin 1))
      = Ideal.sqrt (∑ k : Fin 256, argE m c (ix2 r k) * argE m c (ix2 r k)) := by
  unfold normE
  rw [hostSqrt_apply]
  rw [broadcastInDim_apply _ _ _ _ (ix1 (⟨r.val, by omega⟩ : Fin 512)) (fun a => by fin_cases a; rfl)]
  rw [hostReduceAdd_apply, Ideal.hostReduceAdd_single reducesTo_S512x256_S512_d1 (by decide)]
  rw [constant_apply, Cert.Consts.ofBits_zero, zero_add]
  refine congrArg Ideal.sqrt ?_
  refine Finset.sum_congr (s₁ := (Finset.univ : Finset (Fin 256))) rfl (fun k _ => ?_)
  rw [mulf_apply]
  have hl : Shape.Reduces.lift (by decide : S512x256.Reduces [1] S512) (ix1 (⟨r.val, by omega⟩ : Fin 512)) k
      = ix2 (⟨r.val, by omega⟩ : Fin 512) k := by
    funext a; fin_cases a <;> rfl
  rw [hl, padE_apply]

/-- Window 4's array at a real column: the embedding's entry over the embedding's clamped norm. -/
theorem enT_apply (c : Dev nD) (k : Fin 256) (c' : Fin 504) :
    (V m c main_v7 : S256x512.Idx → EReal) (ix2 k (⟨c'.val, by omega⟩ : Fin 512))
      = Ideal.div (argE m c (ix2 c' k)) (Cert.Spec.embNorm (argE m c) c') := by
  rw [v7_eq]; unfold enTE
  -- the narrowing is the identity; entry (k, c') of the transpose is entry (c', k) of the quotient
  rw [truncf_apply]
  rw [transpose_apply [1, 0] _ _ _ (ix2 (⟨c'.val, by omega⟩ : Fin 512) k) (fun b => by fin_cases b <;> rfl)]
  rw [hostDivf_apply, padE_apply]
  -- the divisor is the clamped norm column spread along the row
  rw [broadcastInDim_apply _ _ _ _ (ix2 (⟨c'.val, by omega⟩ : Fin 512) (0 : Fin 1)) (fun a => by fin_cases a <;> rfl)]
  rw [maximumf_apply, normE_apply, broadcastInDim_scalar_apply, constant_apply]
  rfl

/-- The comparison of the two spread copies of the padded array, at (p, q, r): whether rows p and q agree at entry r. -/
theorem cmpE_apply (c : Dev nD) (p q : Fin 512) (r : Fin 256) :
    cmpf (F := Ideal) (φ := .f32) .oeq
      (broadcastInDim S512x512x256 ![0, 1, 2] bcast_S512x1x256_S512x512x256_0_1_2
        (broadcastInDim S512x1x256 ![0, 2] bcast_S512x256_S512x1x256_0_2 (padE m c)))
      (broadcastInDim S512x512x256 ![0, 1, 2] bcast_S1x512x256_S512x512x256_0_1_2
        (broadcastInDim S1x512x256 ![1, 2] bcast_S512x256_S1x512x256_1_2 (padE m c))) (ix3 p q r)
      = BitVec.ofBool (decide (padE m c (ix2 p r) = padE m c (ix2 q r))) := by
  rw [cmpf_apply, Ideal.cmpf_def]
  rw [broadcastInDim_apply _ _ _ _ (ix3 p (0 : Fin 1) r) (fun a => by fin_cases a <;> rfl)]
  rw [broadcastInDim_apply _ _ _ _ (ix2 p r) (fun a => by fin_cases a <;> rfl)]
  rw [broadcastInDim_apply _ _ _ _ (ix3 (0 : Fin 1) q r) (fun a => by fin_cases a <;> rfl)]
  rw [broadcastInDim_apply _ _ _ _ (ix2 q r) (fun a => by fin_cases a <;> rfl)]
  rfl

/-- The bit of equal rows at two real rows is 1 exactly when the two embeddings are the same row. -/
theorem eqBitE_apply (c : Dev nD) (a b : Fin 504) :
    eqBitE m c (ix2 (⟨a.val, by omega⟩ : Fin 512) (⟨b.val, by omega⟩ : Fin 512)) = 1#1
      ↔ Cert.Spec.SameRow (argE m c) a b := by
  unfold eqBitE
  constructor
  · -- a 1 result met a 1 at every entry that reduces into it
    intro e k
    have hk := Host.reduce_andi_eq_one _ _ _ _ _ e
      (ix3 (⟨a.val, by omega⟩ : Fin 512) (⟨b.val, by omega⟩ : Fin 512) k) (by funext d; fin_cases d <;> rfl)
    rw [cmpE_apply, WordArith.ofBool_eq_one_iff, decide_eq_true_eq, padE_apply, padE_apply] at hk
    exact hk
  · -- every entry that reduces into it is 1
    intro hs
    refine Host.reduce_andi_of_forall _ _ _ _ _ rfl (fun i hi => ?_)
    obtain ⟨p, q, r, rfl⟩ : ∃ (p q : Fin 512) (r : Fin 256), i = ix3 p q r := ⟨i 0, i 1, i 2, eq_ix3 i⟩
    have hp : p = (⟨a.val, by omega⟩ : Fin 512) := Fin.ext (congrArg Fin.val (congrFun hi 0))
    have hq : q = (⟨b.val, by omega⟩ : Fin 512) := Fin.ext (congrArg Fin.val (congrFun hi 1))
    subst hp hq
    rw [cmpE_apply, WordArith.ofBool_eq_one_iff, decide_eq_true_eq, padE_apply, padE_apply]
    exact hs r

/-- Window 5's array at two real rows: 1 where the two embeddings are the same row, else 0. -/
theorem eq_apply (c : Dev nD) (a c' : Fin 504) :
    (V m c main_v14 : S512x512.Idx → EReal) (ix2 (⟨a.val, by omega⟩ : Fin 512) (⟨c'.val, by omega⟩ : Fin 512))
      = if Cert.Spec.SameRow (argE m c) a c' then (1 : EReal) else 0 := by
  rw [v14_eq]
  -- a bit as a number is its value: 1 for the bit 1, 0 for the bit 0
  show (((eqBitE m c (ix2 (⟨a.val, by omega⟩ : Fin 512) (⟨c'.val, by omega⟩ : Fin 512))).toNat : ℝ) : EReal) = _
  by_cases h : Cert.Spec.SameRow (argE m c) a c'
  · rw [if_pos h, (eqBitE_apply m c a c').2 h, show (1#1 : BitVec 1).toNat = 1 from rfl, Nat.cast_one, EReal.coe_one]
  · rw [if_neg h, eq_zero_of_ne_one (fun e => h ((eqBitE_apply m c a c').1 e)),
      show (0#1 : BitVec 1).toNat = 0 from rfl, Nat.cast_zero, EReal.coe_zero]

end Cert.KernelHost

end
-- ==== Proof.KernelPayload.lean ====
/-
  What the kernel body stores, entry by entry, as a function of its six input blocks.

  For a block of 1024 tokens: x0 the tokens' features [1024, 768], x1 their label words [1024, 1], x2 the transposed
  projection [768, 256], x3 the bias [1, 256], x4 the transposed normalised embeddings [256, 512], x5 the 0/1 table
  of equal embedding rows [512, 512]; kappa the value the kernel's scale constant denotes.
-/
import proofs.«426633_j30193620091605_2_alg».proof.Proof.Gen.KernelIdeal.Frame
import proofs.«426633_j30193620091605_2_alg».proof.Proof.Spec
import proofs.«426633_j30193620091605_2_alg».proof.Proof.Consts
import Idealize.ShloMosaic.PureOps.Ideal.Laws
import Idealize.ShloMosaic.Lib.Pipeline.Value

noncomputable section

namespace Cert.KernelPayload

open Idealize.ShloMosaic Idealize.ShloMosaic.ValueIdx Cert.KernelIdeal Cert.KernelIdeal.Gen
open scoped Classical

/-! ## The three products, each into zero, read at an index

For each product: on the output's row axis the left index is the output's row, on the contracted axis both operand
indices are the contraction position, on the output's column axis the right index is the output's column. -/

theorem dotA_lhs0 (i : S1024x256.Idx) (q : dot_S1024x768_S768x256_S1024x256_1_0_0_1_n_n.contr.Idx) :
    (dot_S1024x768_S768x256_S1024x256_1_0_0_1_n_n.lhsIdx i q 0).val = (i 0).val := by
  unfold DotDims.lhsIdx
  rw [dif_neg (show ¬(0 : Fin S1024x768.rank) ∈ dot_S1024x768_S768x256_S1024x256_1_0_0_1_n_n.lhsBatch by decide), dif_pos (show (0 : Fin S1024x768.rank) ∈ dot_S1024x768_S768x256_S1024x256_1_0_0_1_n_n.lhsNonContracting by decide)]
  rfl
theorem dotA_lhs1 (i : S1024x256.Idx) (q : dot_S1024x768_S768x256_S1024x256_1_0_0_1_n_n.contr.Idx) :
    (dot_S1024x768_S768x256_S1024x256_1_0_0_1_n_n.lhsIdx i q 1).val = (q ⟨0, by decide⟩).val :=
  dot_S1024x768_S768x256_S1024x256_1_0_0_1_n_n.lhsIdx_val_of_single rfl i q
theorem dotA_rhs0 (i : S1024x256.Idx) (q : dot_S1024x768_S768x256_S1024x256_1_0_0_1_n_n.contr.Idx) :
    (dot_S1024x768_S768x256_S1024x256_1_0_0_1_n_n.rhsIdx i q 0).val = (q ⟨0, by decide⟩).val :=
  dot_S1024x768_S768x256_S1024x256_1_0_0_1_n_n.rhsIdx_val_of_single rfl i q
theorem dotA_rhs1 (i : S1024x256.Idx) (q : dot_S1024x768_S768x256_S1024x256_1_0_0_1_n_n.contr.Idx) :
    (dot_S1024x768_S768x256_S1024x256_1_0_0_1_n_n.rhsIdx i q 1).val = (i 1).val := by
  unfold DotDims.rhsIdx
  rw [dif_neg (show ¬(1 : Fin S768x256.rank) ∈ dot_S1024x768_S768x256_S1024x256_1_0_0_1_n_n.rhsBatch by decide), dif_pos (show (1 : Fin S768x256.rank) ∈ dot_S1024x768_S768x256_S1024x256_1_0_0_1_n_n.rhsNonContracting by decide)]
  rfl

/-- The first product at (p, k): the sum over the 768 features. -/
theorem matmulA_apply (a : FVec Ideal S1024x768 .bf16) (b : FVec Ideal S768x256 .bf16) (p : Fin 1024) (k : Fin 256) :
    matmul dot_S1024x768_S768x256_S1024x256_1_0_0_1_n_n none a b (constant (F := Ideal) S1024x256 .f32 0x00000000#32) (ix2 p k)
      = ∑ d : Fin 768, a (ix2 p d) * b (ix2 d k) := by
  show FloatOps.matmul dot_S1024x768_S768x256_S1024x256_1_0_0_1_n_n none a b (constant S1024x256 .f32 0x00000000#32) (ix2 p k) = _
  rw [Ideal.matmul_constant_zero_apply, ← Equiv.sum_comp (contrEquiv1 dot_S1024x768_S768x256_S1024x256_1_0_0_1_n_n 768 rfl rfl).symm]
  refine Finset.sum_congr rfl fun d _ => ?_
  have hd := contrEquiv1_symm_val dot_S1024x768_S768x256_S1024x256_1_0_0_1_n_n 768 rfl rfl d
  have el : dot_S1024x768_S768x256_S1024x256_1_0_0_1_n_n.lhsIdx (ix2 p k) ((contrEquiv1 dot_S1024x768_S768x256_S1024x256_1_0_0_1_n_n 768 rfl rfl).symm d) = ix2 p d :=
    funext fun a => Fin.ext (by
      match a with
      | ⟨0, _⟩ => exact dotA_lhs0 _ _
      | ⟨1, _⟩ => exact (dotA_lhs1 _ _).trans hd)
  have er : dot_S1024x768_S768x256_S1024x256_1_0_0_1_n_n.rhsIdx (ix2 p k) ((contrEquiv1 dot_S1024x768_S768x256_S1024x256_1_0_0_1_n_n 768 rfl rfl).symm d) = ix2 d k :=
    funext fun a => Fin.ext (by
      match a with
      | ⟨0, _⟩ => exact (dotA_rhs0 _ _).trans hd
      | ⟨1, _⟩ => exact dotA_rhs1 _ _)
  rw [el, er]

theorem dotB_lhs0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem dotB_lhs1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem dotB_rhs0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem dotB_rhs1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The second product at (p, c): the sum over the 256 projected coordinates. -/
theorem matmulB_apply (a : FVec Ideal S1024x256 .bf16) (b : FVec Ideal S256x512 .bf16) (p : Fin 1024) (k : Fin 512) :
    matmul dot_S1024x256_S256x512_S1024x512_1_0_0_1_n_n none a b (constant (F := Ideal) S1024x512 .f32 0x00000000#32) (ix2 p k)
      = ∑ d : Fin 256, a (ix2 p d) * b (ix2 d k) := by
  show FloatOps.matmul dot_S1024x256_S256x512_S1024x512_1_0_0_1_n_n none a b (constant S1024x512 .f32 0x00000000#32) (ix2 p k) = _
  rw [Ideal.matmul_constant_zero_apply, ← Equiv.sum_comp (contrEquiv1 dot_S1024x256_S256x512_S1024x512_1_0_0_1_n_n 256 rfl rfl).symm]
  refine Finset.sum_congr rfl fun d _ => ?_
  have hd := contrEquiv1_symm_val dot_S1024x256_S256x512_S1024x512_1_0_0_1_n_n 256 rfl rfl d
  have el : dot_S1024x256_S256x512_S1024x512_1_0_0_1_n_n.lhsIdx (ix2 p k) ((contrEquiv1 dot_S1024x256_S256x512_S1024x512_1_0_0_1_n_n 256 rfl rfl).symm d) = ix2 p d :=
    funext fun a => Fin.ext (by
      match a with
      | ⟨0, _⟩ => exact dotB_lhs0 _ _
      | ⟨1, _⟩ => exact (dotB_lhs1 _ _).trans hd)
  have er : dot_S1024x256_S256x512_S1024x512_1_0_0_1_n_n.rhsIdx (ix2 p k) ((contrEquiv1 dot_S1024x256_S256x512_S1024x512_1_0_0_1_n_n 256 rfl rfl).symm d) = ix2 d k :=
    funext fun a => Fin.ext (by
      match a with
      | ⟨0, _⟩ => exact (dotB_rhs0 _ _).trans hd
      | ⟨1, _⟩ => exact dotB_rhs1 _ _)
  rw [el, er]

theorem dotC_lhs0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem dotC_lhs1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem dotC_rhs0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem dotC_rhs1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The third product at (p, c): the sum over the 512 columns of the one-hot row. -/
theorem matmulC_apply (a : FVec Ideal S1024x512 .bf16) (b : FVec Ideal S512x512 .bf16) (p : Fin 1024) (k : Fin 512) :
    matmul dot_S1024x512_S512x512_S1024x512_1_0_0_1_n_n none a b (constant (F := Ideal) S1024x512 .f32 0x00000000#32) (ix2 p k)
      = ∑ d : Fin 512, a (ix2 p d) * b (ix2 d k) := by
  show FloatOps.matmul dot_S1024x512_S512x512_S1024x512_1_0_0_1_n_n none a b (constant S1024x512 .f32 0x00000000#32) (ix2 p k) = _
  rw [Ideal.matmul_constant_zero_apply, ← Equiv.sum_comp (contrEquiv1 dot_S1024x512_S512x512_S1024x512_1_0_0_1_n_n 512 rfl rfl).symm]
  refine Finset.sum_congr rfl fun d _ => ?_
  have hd := contrEquiv1_symm_val dot_S1024x512_S512x512_S1024x512_1_0_0_1_n_n 512 rfl rfl d
  have el : dot_S1024x512_S512x512_S1024x512_1_0_0_1_n_n.lhsIdx (ix2 p k) ((contrEquiv1 dot_S1024x512_S512x512_S1024x512_1_0_0_1_n_n 512 rfl rfl).symm d) = ix2 p d :=
    funext fun a => Fin.ext (by
      match a with
      | ⟨0, _⟩ => exact dotC_lhs0 _ _
      | ⟨1, _⟩ => exact (dotC_lhs1 _ _).trans hd)
  have er : dot_S1024x512_S512x512_S1024x512_1_0_0_1_n_n.rhsIdx (ix2 p k) ((contrEquiv1 dot_S1024x512_S512x512_S1024x512_1_0_0_1_n_n 512 rfl rfl).symm d) = ix2 d k :=
    funext fun a => Fin.ext (by
      match a with
      | ⟨0, _⟩ => exact (dotC_rhs0 _ _).trans hd
      | ⟨1, _⟩ => exact dotC_rhs1 _ _)
  rw [el, er]

/-! ## Layout steps read at an index -/

/-- A sum over the lanes of a two-axis vector, at row p: the sum of the row's entries. -/
theorem laneSum_apply {m n : Nat} (src : FVec Ideal ⟨2, ![m, n]⟩ .f32) (h : Shape.Reduces ⟨2, ![m, n]⟩ [1] ⟨1, ![m]⟩)
    (hφ : FKind.Formats .f32) (hacc : (0x00000000#32 : BitVec 32) = FKind.add.neutral .f32 hφ) (p : Fin m) :
    multiReduction (F := Ideal) .add [1] ⟨1, ![m]⟩ src 0x00000000#32 h hφ hacc (ix1 p) = ∑ k : Fin n, src (ix2 p k) := by
  rw [Ideal.multiReduction_add_single]
  show ∑ k : Fin n, src (h.lift (ix1 p) k) = _
  refine Finset.sum_congr rfl fun k _ => congrArg src ?_
  funext c
  match c with
  | ⟨0, _⟩ => exact Fin.ext rfl
  | ⟨1, _⟩ => exact Fin.ext rfl

/-- A column spread over n lanes, at (p, k): the column's entry p. -/
theorem colBroadcast_apply {α : Type} {m n : Nat} (v : (⟨2, ![m, 1]⟩ : Shape).Idx → α)
    (h : Shape.Broadcasts ⟨2, ![m, 1]⟩ ⟨2, ![m, n]⟩) (hm : m ≠ 1) (p : Fin m) (k : Fin n) :
    broadcastTo ⟨2, ![m, n]⟩ v h (ix2 p k) = v (ix2 p (0 : Fin 1)) :=
  broadcastTo_apply v h (ix2 p k) (ix2 p (0 : Fin 1)) (fun a => by
    match a with
    | ⟨0, _⟩ => show p.val = if m = 1 then 0 else p.val; rw [if_neg hm]
    | ⟨1, _⟩ => rfl)

/-- A row spread over m rows, at (p, k): the row's entry k. -/
theorem rowBroadcast_apply {α : Type} {m n : Nat} (v : (⟨2, ![1, n]⟩ : Shape).Idx → α)
    (h : Shape.Broadcasts ⟨2, ![1, n]⟩ ⟨2, ![m, n]⟩) (hn : n ≠ 1) (p : Fin m) (k : Fin n) :
    broadcastTo ⟨2, ![m, n]⟩ v h (ix2 p k) = v (ix2 (0 : Fin 1) k) :=
  broadcastTo_apply v h (ix2 p k) (ix2 (0 : Fin 1) k) (fun a => by
    match a with
    | ⟨0, _⟩ => rfl
    | ⟨1, _⟩ => show k.val = if n = 1 then 0 else k.val; rw [if_neg hn])

/-- A vector viewed as a column, at (p, 0): the vector's entry p. -/
theorem colOfVec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  shapeCast_apply v h (ix2 i (0 : Fin 1)) (ix1 i) (by
    rw [Shape.rowMajor_val_one, Shape.rowMajor_val_two]
    show i.val = i.val * 1 + 0
    omega)

section
variable (x0 : S1024x768.Idx → EReal) (x1 : S1024x1.Idx → BitVec 32) (x2 : S768x256.Idx → EReal) (x3 : S1x256.Idx → EReal)
  (x4 : S256x512.Idx → EReal) (x5 : S512x512.Idx → EReal)

/-- Row p of the block's projection. -/
def bproj (p : Fin 1024) (k : Fin 256) : EReal := (∑ d : Fin 768, x0 (ix2 p d) * x2 (ix2 d k)) + x3 (ix2 (0 : Fin 1) k)

/-- Its clamped norm. -/
def bnorm (p : Fin 1024) : EReal := max (Ideal.sqrt (∑ k : Fin 256, bproj x0 x2 x3 p k * bproj x0 x2 x3 p k)) Cert.Spec.eps

/-- The scaled similarity of row p with column c of x4. -/
def bsims (p : Fin 1024) (c : Fin 512) : EReal :=
  (∑ k : Fin 256, Ideal.div (bproj x0 x2 x3 p k) (bnorm x0 x2 x3 p) * x4 (ix2 k c))
    * Named.named (F := Ideal) Cert.KernelIdeal.κ "inv_temp" (φ := .f32) 0x41200000#32

/-- Row p's label word names column c. -/
def bhot (p : Fin 1024) (c : Fin 512) : Prop := x1 (ix2 p (0 : Fin 1)) = BitVec.ofNat 32 c.val

/-- The stored block at row p, column j. -/
def bout (p : Fin 1024) (j : Fin 505) : EReal :=
  if h : j.val = 0 then ∑ c : Fin 512, (if bhot x1 p c then bsims x0 x2 x3 x4 p c else 0)
  else if (((1 : ℝ) / 2 : ℝ) : EReal) < ∑ i : Fin 512, (if bhot x1 p i then (1 : EReal) else 0) * x5 (ix2 i ⟨j.val - 1, by omega⟩)
    then ⊥ else bsims x0 x2 x3 x4 p ⟨j.val - 1, by omega⟩

/-! # The payloads read at an index

The same blocks again, named by their element formats, so that each operation's operands have the types it asks for. -/

section Payloads
variable (y0 : FVec Ideal S1024x768 .f32) (y1 : IVec S1024x1 32) (y2 : FVec Ideal S768x256 .bf16) (y3 : FVec Ideal S1x256 .f32)
  (y4 : FVec Ideal S256x512 .bf16) (y5 : FVec Ideal S512x512 .bf16)

/-! ## The scaled similarities -/

/-- The projected block: the first product plus the bias row. -/
def vproj : FVec Ideal S1024x256 .f32 :=
  addf (matmul dot_S1024x768_S768x256_S1024x256_1_0_0_1_n_n none (truncf .bf16 y0 bitsLt_bf16_f32)
      (shapeCast S768x256 y2 shapeCasts_S768x256_S768x256) (constant S1024x256 .f32 0x00000000#32))
    (broadcastTo S1024x256 (shapeCast S1x256 y3 shapeCasts_S1x256_S1x256) broadcasts_S1x256_S1024x256)

theorem vproj_apply (p : Fin 1024) (k : Fin 256) : vproj y0 y2 y3 (ix2 p k) = bproj y0 y2 y3 p k := by
  unfold vproj bproj
  rw [addf_apply, matmulA_apply, shapeCast_self, shapeCast_self, rowBroadcast_apply _ _ (by decide)]
  rfl

/-- The clamped norm of each row of a block, as a column, at (p, 0). -/
theorem normCol_apply (v : FVec Ideal S1024x256 .f32) (p : Fin 1024) :
    maximumf (sqrt (shapeCast S1024x1 (multiReduction .add [1] S1024 (mulf v v) 0x00000000#32 reduces_S1024x256_S1024 (.inl rfl) rfl) shapeCasts_S1024_S1024x1))
      (broadcast S1024x1 (Scalar.ofBits .f32 0x322BCC77#32)) (ix2 p (0 : Fin 1))
      = max (Ideal.sqrt (∑ k : Fin 256, v (ix2 p k) * v (ix2 p k))) Cert.Spec.eps := by
  show max (Ideal.sqrt (shapeCast S1024x1 _ shapeCasts_S1024_S1024x1 (ix2 p (0 : Fin 1)))) (Ideal.ofBits .f32 0x322BCC77#32) = _
  rw [colOfVec_apply]
  exact congrArg (fun t => max (Ideal.sqrt t) Cert.Spec.eps) (laneSum_apply (mulf v v) reduces_S1024x256_S1024 _ _ p)

/-- The clamped norms of the projected block, as a column. -/
def vnorm : FVec Ideal S1024x1 .f32 :=
  maximumf (sqrt (shapeCast S1024x1 (multiReduction .add [1] S1024 (mulf (vproj y0 y2 y3) (vproj y0 y2 y3)) 0x00000000#32 reduces_S1024x256_S1024 (.inl rfl) rfl) shapeCasts_S1024_S1024x1))
    (broadcast S1024x1 (Scalar.ofBits .f32 0x322BCC77#32))

theorem vnorm_apply (p : Fin 1024) : vnorm y0 y2 y3 (ix2 p (0 : Fin 1)) = bnorm y0 y2 y3 p := by
  unfold vnorm bnorm
  refine (normCol_apply _ p).trans ?_
  simp only [vproj_apply]

theorem pay2_eq : k0_pay2 (F := Ideal) y0 y2 y3 y4
    = mulf (matmul dot_S1024x256_S256x512_S1024x512_1_0_0_1_n_n none
        (truncf .bf16 (divf (vproj y0 y2 y3) (broadcastTo S1024x256 (vnorm y0 y2 y3) broadcasts_S1024x1_S1024x256)) bitsLt_bf16_f32)
        (shapeCast S256x512 y4 shapeCasts_S256x512_S256x512) (constant S1024x512 .f32 0x00000000#32))
      (broadcast S1024x512 (Named.named κ "inv_temp" 0x41200000#32)) := rfl

/-- The scaled similarities at (p, c). -/
theorem pay2_apply (p : Fin 1024) (c : Fin 512) : k0_pay2 (F := Ideal) y0 y2 y3 y4 (ix2 p c) = bsims y0 y2 y3 y4 p c := by
  rw [pay2_eq]
  unfold bsims
  rw [mulf_apply, broadcast_apply, matmulB_apply, shapeCast_self]
  refine congrArg (· * _) (Finset.sum_congr rfl fun k _ => ?_)
  rw [truncf_apply, divf_apply, colBroadcast_apply _ _ (by decide), vproj_apply, vnorm_apply]

/-! ## The one-hot rows -/

/-- The label column spread over the 512 lanes and compared with the lane numbers, at (p, c). -/
theorem pay3_apply (p : Fin 1024) (c : Fin 512) :
    k0_pay3 (F := Ideal) y1 (ix2 p c) = BitVec.ofBool (y1 (ix2 p (0 : Fin 1)) == BitVec.ofNat 32 c.val) := by
  show IntOp.cmpi .eq (broadcastTo S1024x512 (shapeCast S1024x1 y1 shapeCasts_S1024x1_S1024x1) broadcasts_S1024x1_S1024x512 (ix2 p c))
      (iota .tc S1024x512 32 [1] iota_S1024x512_d1_w32 (ix2 p c)) = _
  rw [shapeCast_self, colBroadcast_apply _ _ (by decide), iota_single_apply]
  rfl

theorem pay3_of_hot {p : Fin 1024} {c : Fin 512} (h : bhot y1 p c) : k0_pay3 (F := Ideal) y1 (ix2 p c) = 1#1 := by
  rw [pay3_apply, show y1 (ix2 p (0 : Fin 1)) = BitVec.ofNat 32 c.val from h, beq_self_eq_true]
  rfl

theorem pay3_of_not_hot {p : Fin 1024} {c : Fin 512} (h : ¬bhot y1 p c) : k0_pay3 (F := Ideal) y1 (ix2 p c) = 0#1 := by
  rw [pay3_apply]
  have : (y1 (ix2 p (0 : Fin 1)) == BitVec.ofNat 32 c.val) = false := by
    rw [beq_eq_false_iff_ne]; exact h
  rw [this]; rfl

/-- A bit widened to a word and read as a signed integer: one for the bit 1, zero for the bit 0. -/
theorem bitFloat_one : FloatOps.sitofp (F := Ideal) .f32 ((1#1 : BitVec 1).setWidth 32) = (1 : EReal) := by
  show (((BitVec.setWidth 32 (1#1 : BitVec 1)).toInt : ℝ) : EReal) = 1
  have e : (BitVec.setWidth 32 (1#1 : BitVec 1)).toInt = 1 := by decide
  rw [e, Int.cast_one, EReal.coe_one]
theorem bitFloat_zero : FloatOps.sitofp (F := Ideal) .f32 ((0#1 : BitVec 1).setWidth 32) = (0 : EReal) := by
  show (((BitVec.setWidth 32 (0#1 : BitVec 1)).toInt : ℝ) : EReal) = 0
  have e : (BitVec.setWidth 32 (0#1 : BitVec 1)).toInt = 0 := by decide
  rw [e, Int.cast_zero, EReal.coe_zero]

/-- The one-hot row as floats, at (p, i). -/
theorem hotFloat_apply (p : Fin 1024) (i : Fin 512) :
    (truncf .bf16 (sitofp (F := Ideal) .f32 (extui 32 (k0_pay3 (F := Ideal) y1) natLt_1_32)) bitsLt_bf16_f32 : FVec Ideal S1024x512 .bf16) (ix2 p i)
      = if bhot y1 p i then (1 : EReal) else 0 := by
  rw [truncf_apply, sitofp_apply, extui_apply]
  by_cases h : bhot y1 p i
  · rw [if_pos h, pay3_of_hot y1 h]; exact bitFloat_one
  · rw [if_neg h, pay3_of_not_hot y1 h]; exact bitFloat_zero

/-- The one-hot rows times the 0/1 table, at (p, c). -/
theorem pay5_apply (p : Fin 1024) (c : Fin 512) :
    k0_pay5 (F := Ideal) y1 y5 (ix2 p c) = ∑ i : Fin 512, (if bhot y1 p i then (1 : EReal) else 0) * y5 (ix2 i c) := by
  show matmul dot_S1024x512_S512x512_S1024x512_1_0_0_1_n_n none
      (truncf .bf16 (sitofp (F := Ideal) .f32 (extui 32 (k0_pay3 (F := Ideal) y1) natLt_1_32)) bitsLt_bf16_f32)
      (shapeCast S512x512 y5 shapeCasts_S512x512_S512x512) (constant S1024x512 .f32 0x00000000#32) (ix2 p c) = _
  rw [matmulC_apply, shapeCast_self]
  refine Finset.sum_congr rfl fun i _ => ?_
  rw [hotFloat_apply]

/-- The similarities picked by the one-hot row and summed over the lanes, as a column, at (p, 0). -/
theorem pay4_apply (p : Fin 1024) :
    k0_pay4 (F := Ideal) y0 y2 y3 y4 y1 (ix2 p (0 : Fin 1)) = ∑ c : Fin 512, (if bhot y1 p c then bsims y0 y2 y3 y4 p c else 0) := by
  show shapeCast S1024x1 (multiReduction .add [1] S1024
      (select (k0_pay3 (F := Ideal) y1) (k0_pay2 (F := Ideal) y0 y2 y3 y4) (broadcast S1024x512 (Scalar.ofBits .f32 0x00000000#32)))
      0x00000000#32 reduces_S1024x512_S1024 (.inl rfl) rfl) shapeCasts_S1024_S1024x1 (ix2 p (0 : Fin 1)) = _
  rw [colOfVec_apply]
  refine (laneSum_apply _ reduces_S1024x512_S1024 _ _ p).trans ?_
  refine Finset.sum_congr rfl fun c _ => ?_
  rw [select_apply]
  by_cases h : bhot y1 p c
  · rw [if_pos h, pay3_of_hot y1 h, select_one, pay2_apply]
  · rw [if_neg h, pay3_of_not_hot y1 h, select_zero, broadcast_apply]
    exact Cert.Consts.ofBits_zero

/-! ## The stored block -/

/-- The stored block at (p, 0): the column. -/
theorem pay1_apply_zero (v22 : FVec Ideal S1024x512 .f32) (v31 : FVec Ideal S1024x1 .f32) (v37 : FVec Ideal S1024x512 .f32) (cst : Ideal .f32)
    (p : Fin 1024) (j : Fin 505) (hj : j.val = 0) :
    k0_pay1 (F := Ideal) v22 v31 v37 cst (ix2 p j) = v31 (ix2 p (0 : Fin 1)) := by
  delta k0_pay1
  exact concatenate_pair_apply_left (1 : Fin S1024x505.rank) v31 _ concatenates_S1024x1_S1024x504_S1024x505_d1 (ix2 p j) rfl (ix2 p (0 : Fin 1))
    (fun b => by
      match b with
      | ⟨0, _⟩ => rfl
      | ⟨1, _⟩ => exact hj.symm)

/-- The stored block at (p, j) for j past the column: the masked similarity at lane j - 1. -/
theorem pay1_apply_succ (v22 : FVec Ideal S1024x512 .f32) (v31 : FVec Ideal S1024x1 .f32) (v37 : FVec Ideal S1024x512 .f32) (cst : Ideal .f32)
    (p : Fin 1024) (j : Fin 505) (hj : ¬j.val = 0) :
    k0_pay1 (F := Ideal) v22 v31 v37 cst (ix2 p j)
      = if cst < v37 (ix2 p (⟨j.val - 1, by omega⟩ : Fin 512)) then ⊥ else v22 (ix2 p (⟨j.val - 1, by omega⟩ : Fin 512)) := by
  delta k0_pay1
  refine (concatenate_pair_apply_right (1 : Fin S1024x505.rank) v31 _ concatenates_S1024x1_S1024x504_S1024x505_d1 (ix2 p j) rfl rfl
    (ix2 p (⟨j.val - 1, by omega⟩ : Fin 504)) (fun b hb => by
      match b with
      | ⟨0, _⟩ => rfl
      | ⟨1, _⟩ => exact absurd rfl hb) (by show j.val - 1 + 1 = j.val; omega)).trans ?_
  refine (extractStridedSlice_apply ![0, 0] _ slices_S1024x512_o0_0_S1024x504 _ (ix2 p (⟨j.val - 1, by omega⟩ : Fin 512)) (fun a => by
      match a with
      | ⟨0, _⟩ => show p.val = 0 + p.val; omega
      | ⟨1, _⟩ => show j.val - 1 = 0 + (j.val - 1); omega)).trans ?_
  rw [select_apply, cmpf_apply, broadcast_apply, broadcast_apply, Ideal.cmpf_def]
  show Scalar.select (BitVec.ofBool (decide (cst < v37 _))) (Ideal.ofBits .f32 0xFF800000#32) _ = _
  rw [Cert.Consts.ofBits_neg_inf]
  by_cases h : cst < v37 (ix2 p (⟨j.val - 1, by omega⟩ : Fin 512))
  · rw [if_pos h, decide_eq_true h]; exact select_one _ _
  · rw [if_neg h, decide_eq_false h]; exact select_zero _ _

end Payloads

/-- The offsets of every load and of the store are zero on both axes. -/
theorem offsets_zero : (![0, 0] : Fin 2 → Nat) = fun _ => 0 := funext fun a => by fin_cases a <;> rfl

/-- The body's stored block is bout, entry by entry. -/
theorem out_apply (p : Fin 1024) (j : Fin 505) :
    out0_6 (F := Ideal) x0 x1 x2 x3 x4 x5 (ix2 p j) = bout x0 x1 x2 x3 x4 x5 p j := by
  delta out0_6
  rw [View.canon_unit_zero offsets_zero]
  simp only [View.ld_unit_zero (S := S1024x768) offsets_zero, View.ld_unit_zero (S := S1024x1) offsets_zero,
    View.ld_unit_zero (S := S768x256) offsets_zero, View.ld_unit_zero (S := S1x256) offsets_zero,
    View.ld_unit_zero (S := S256x512) offsets_zero, View.ld_unit_zero (S := S512x512) offsets_zero]
  unfold bout
  by_cases hj : j.val = 0
  · rw [dif_pos hj, pay1_apply_zero _ _ _ _ p j hj]
    exact pay4_apply x0 x1 x2 x3 x4 p
  · rw [dif_neg hj, pay1_apply_succ _ _ _ _ p j hj, pay5_apply, pay2_apply]
    refine if_congr ?_ rfl rfl
    show Ideal.ofBits .f32 0x3F000000#32 < _ ↔ _
    rw [Cert.Consts.ofBits_half]

end

end Cert.KernelPayload

end
-- ==== Proof.LibOneHot.lean ====
/-
  One-hot selection as a sum, on the extended reals.

  A row lookup written as a product with a one-hot row: the sum over a finite index set of an indicator of ONE
  index times a function is the function at that index, and the sum against an indicator that holds nowhere is
  zero — with no finiteness needed, because on the extended reals `0 · x = 0` and `1 · x = x` for every `x`,
  infinities included. Beside it: when a machine word `w` below the table's length is shifted down by a block
  offset `1408 k`, the shifted word equals a position `j` of the block exactly when `w` is row `j` of block `k`;
  and a value recombined from a head and a residual, `x + (x − x)`, is `x` unless `x` is `+∞`.
-/
import Mathlib.Data.EReal.Operations
import Mathlib.Algebra.BigOperators.Group.Finset.Basic

namespace Cert.OneHot

open Finset

/-- A sum against the indicator of exactly one index is the entry there. -/
theorem sum_indicator_mul_eq {ι : Type} [Fintype ι] [DecidableEq ι] (j0 : ι) (H : ι → EReal)
    (P : ι → Prop) [DecidablePred P] (hP : ∀ j, P j ↔ j = j0) :
    (∑ j, (if P j then (1 : EReal) else 0) * H j) = H j0 := by
  rw [Finset.sum_eq_single j0]
  · rw [if_pos ((hP j0).mpr rfl), one_mul]
  · intro j _ hj
    rw [if_neg (fun h => hj ((hP j).mp h)), zero_mul]
  · intro h; exact absurd (Finset.mem_univ j0) h

/-- A sum against an indicator that holds nowhere is zero. -/
theorem sum_indicator_mul_none {ι : Type} [Fintype ι] (H : ι → EReal)
    (P : ι → Prop) [DecidablePred P] (hP : ∀ j, ¬P j) :
    (∑ j, (if P j then (1 : EReal) else 0) * H j) = 0 := by
  apply Finset.sum_eq_zero
  intro j _
  rw [if_neg (hP j), zero_mul]

/-- A word below 8448 shifted down by `1408 k` (`k < 6`) is position `j < 1408` exactly when it is row `j` of block `k`. -/
theorem ofNat_eq_sub_iff (w : BitVec 32) (k j : ℕ) (hw : w.toNat < 8448) (hk : k < 6) (hj : j < 1408) :
    BitVec.ofNat 32 j = w - BitVec.ofNat 32 k * 1408#32 ↔ w.toNat = 1408 * k + j := by
  rw [← BitVec.toNat_inj]
  simp only [BitVec.toNat_sub, BitVec.toNat_mul, BitVec.toNat_ofNat]
  omega

/-- A value recombined from itself and its own residual is itself, unless it is `+∞`. -/
theorem add_sub_self_of_ne_top {x : EReal} (h : x ≠ ⊤) : x + (x - x) = x := by
  induction x using EReal.rec with
  | bot => exact EReal.bot_add _
  | coe r =>
    rw [← EReal.coe_sub, sub_self, EReal.coe_zero, add_zero]
  | top => exact absurd rfl h

/-- Zero has no residual. -/
theorem zero_sub_zero : (0 : EReal) - 0 = 0 := by simp

end Cert.OneHot
-- ==== Proof.BlockMath.lean ====
/-
  From one block of the kernel to the specification, as mathematics on the extended reals.

  Fix a row p of a block of 1024 tokens that is row r of the whole arrays, and suppose the six input blocks hold
  what the program stages: the tokens' features and label words of that row, the projection transposed, the bias,
  at each real column c (below 504) the embedding's entries over its clamped norm, and at two real rows the 0/1
  mark of "same row".  Then what the body stores at (p, j) is the specification at (r, j):

  * the block's projection and clamped norm are the specification's, term by term;
  * multiplying by the scale constant, which denotes 134217728 / 13421773, is dividing by the temperature, whose
    pattern denotes 13421773 / 134217728: a quotient by a nonzero real is the product with its reciprocal on every
    extended real;
  * under the range condition the label word equals the column number c exactly when c is the label, so the sum
    over 512 columns of "the similarity where the label is c, else 0" is the similarity at the label, and the sum
    of "1 where the label is i, else 0" times the mark of (i, c) is the mark of (label, c): no finiteness is needed,
    since x + 0 = x and 0 * x = 0 hold for every extended real;
  * one half is below the mark exactly when the mark is 1.
-/
import proofs.«426633_j30193620091605_2_alg».proof.Proof.KernelPayload
import proofs.«426633_j30193620091605_2_alg».proof.Proof.Spec
import proofs.«426633_j30193620091605_2_alg».proof.Proof.Consts
import proofs.«426633_j30193620091605_2_alg».proof.Proof.LibOneHot
import Idealize.ShloMosaic.PureOps.IdealRules

noncomputable section

namespace Cert.BlockMath

open Idealize.ShloMosaic Idealize.ShloMosaic.ValueIdx Cert.KernelIdeal Cert.KernelPayload Cert.Spec
open scoped Classical

/-- The scale constant denotes 134217728 / 13421773. -/
theorem scale_value :
    Named.named (F := Ideal) Cert.KernelIdeal.κ "inv_temp" (φ := .f32) 0x41200000#32 = (((134217728 : ℝ) / 13421773 : ℝ) : EReal) :=
  IdealRules.named_const.ideal_named_scalar _ _ _ _ rfl

/-- Multiplying by the scale constant is dividing by the temperature. -/
theorem mul_scale (s : EReal) :
    s * Named.named (F := Ideal) Cert.KernelIdeal.κ "inv_temp" (φ := .f32) 0x41200000#32 = Ideal.div s temperature := by
  rw [scale_value, temperature, Cert.Consts.ofBits_temperature,
    Ideal.div_coe (by norm_num : ((13421773 : ℝ) / 134217728) ≠ 0) s]
  congr 2
  norm_num

/-- One half is below 1. -/
theorem half_lt_one : (((1 : ℝ) / 2 : ℝ) : EReal) < 1 := by
  rw [← EReal.coe_one, EReal.coe_lt_coe_iff]; norm_num

/-- One half is not below 0. -/
theorem not_half_lt_zero : ¬ (((1 : ℝ) / 2 : ℝ) : EReal) < 0 := by
  rw [← EReal.coe_zero, EReal.coe_lt_coe_iff]; norm_num

section
variable (x0 : S1024x768.Idx → EReal) (x1 : S1024x1.Idx → BitVec 32) (x2 : S768x256.Idx → EReal) (x3 : S1x256.Idx → EReal)
  (x4 : S256x512.Idx → EReal) (x5 : S512x512.Idx → EReal)
variable (X : SX.Idx → EReal) (L : SL.Idx → BitVec 32) (W : SW.Idx → EReal) (B : SB.Idx → EReal) (E : SE.Idx → EReal)

/-- Row p of the six blocks holds what the program stages for row r of the arrays. -/
structure RowOf (p : Fin 1024) (r : Fin 32768) : Prop where
  feat : ∀ d : Fin 768, x0 (ix2 p d) = X (ix2 r d)
  word : x1 (ix2 p (0 : Fin 1)) = L (ix1 r)
  projT : ∀ (d : Fin 768) (k : Fin 256), x2 (ix2 d k) = W (ix2 k d)
  bias : ∀ k : Fin 256, x3 (ix2 (0 : Fin 1) k) = B (ix1 k)
  emb : ∀ (k : Fin 256) (c : Fin 504), x4 (ix2 k (⟨c.val, by omega⟩ : Fin 512)) = Ideal.div (E (ix2 c k)) (embNorm E c)
  mark : ∀ (a c : Fin 504), x5 (ix2 (⟨a.val, by omega⟩ : Fin 512) (⟨c.val, by omega⟩ : Fin 512))
      = if SameRow E a c then (1 : EReal) else 0

variable {x0 x1 x2 x3 x4 x5 X L W B E}
variable {p : Fin 1024} {r : Fin 32768}

/-- The block's projection is the specification's. -/
theorem bproj_eq (h : RowOf x0 x1 x2 x3 x4 x5 X L W B E p r) (k : Fin 256) : bproj x0 x2 x3 p k = proj X W B r k := by
  unfold bproj proj
  simp only [h.feat, h.projT, h.bias]

/-- The block's clamped norm is the specification's. -/
theorem bnorm_eq (h : RowOf x0 x1 x2 x3 x4 x5 X L W B E p r) : bnorm x0 x2 x3 p = projNorm X W B r := by
  unfold bnorm projNorm
  simp only [bproj_eq h]

/-- At a real column the block's scaled similarity is the logit. -/
theorem bsims_eq (h : RowOf x0 x1 x2 x3 x4 x5 X L W B E p r) (c : Fin 504) :
    bsims x0 x2 x3 x4 p (⟨c.val, by omega⟩ : Fin 512) = logit X W B E r c := by
  unfold bsims
  rw [mul_scale]
  unfold logit cosine
  simp only [bproj_eq h, bnorm_eq h, h.emb]

/-- Under the range condition the label word names column c exactly when c is the label. -/
theorem bhot_iff (h : RowOf x0 x1 x2 x3 x4 x5 X L W B E p r) (hr : InRange L) (c : Fin 512) :
    bhot x1 p c ↔ c.val = (labelAt L r).val := by
  unfold bhot
  rw [h.word, labelAt_val L hr r]
  have hc : c.val % 2 ^ 32 = c.val := Nat.mod_eq_of_lt (by have := c.isLt; omega)
  constructor
  · intro e
    have := congrArg BitVec.toNat e
    rw [BitVec.toNat_ofNat, hc] at this
    exact this.symm
  · intro e
    apply BitVec.eq_of_toNat_eq
    rw [BitVec.toNat_ofNat, hc, e]

/-- The label as one of the 512 columns. -/
def labelCol (L : SL.Idx → BitVec 32) (r : Fin 32768) : Fin 512 := ⟨(labelAt L r).val, by have := (labelAt L r).isLt; omega⟩

/-- The one-hot sum of similarities is the logit of the label. -/
theorem pos_eq (h : RowOf x0 x1 x2 x3 x4 x5 X L W B E p r) (hr : InRange L) :
    (∑ c : Fin 512, (if bhot x1 p c then bsims x0 x2 x3 x4 p c else 0)) = logit X W B E r (labelAt L r) := by
  rw [Finset.sum_eq_single (labelCol L r)]
  · rw [if_pos ((bhot_iff h hr (labelCol L r)).mpr rfl)]
    exact bsims_eq h (labelAt L r)
  · intro c _ hne
    rw [if_neg]
    intro hb
    exact hne (Fin.ext ((bhot_iff h hr c).mp hb))
  · intro habs
    exact absurd (Finset.mem_univ _) habs

/-- The one-hot sum against the marks of column c is the mark of (label, c). -/
theorem mask_eq (h : RowOf x0 x1 x2 x3 x4 x5 X L W B E p r) (hr : InRange L) (c : Fin 504) :
    (∑ i : Fin 512, (if bhot x1 p i then (1 : EReal) else 0) * x5 (ix2 i (⟨c.val, by omega⟩ : Fin 512)))
      = if SameRow E (labelAt L r) c then (1 : EReal) else 0 := by
  rw [Cert.OneHot.sum_indicator_mul_eq (labelCol L r) (fun i => x5 (ix2 i (⟨c.val, by omega⟩ : Fin 512))) (fun i => bhot x1 p i)
    (fun i => by rw [bhot_iff h hr i]; exact ⟨fun e => Fin.ext e, fun e => congrArg Fin.val e⟩)]
  exact h.mark (labelAt L r) c

/-- What the body stores at (p, j) is the specification at (r, j). -/
theorem bout_eq (h : RowOf x0 x1 x2 x3 x4 x5 X L W B E p r) (hr : InRange L) (j : Fin 505) :
    bout x0 x1 x2 x3 x4 x5 p j = Gat X L W B E r j := by
  unfold bout Gat
  by_cases hj : j.val = 0
  · rw [dif_pos hj, dif_pos hj]
    exact pos_eq h hr
  · rw [dif_neg hj, dif_neg hj]
    have hm := mask_eq h hr (⟨j.val - 1, by have := j.isLt; omega⟩ : Fin 504)
    by_cases hS : SameRow E (labelAt L r) (⟨j.val - 1, by have := j.isLt; omega⟩ : Fin 504)
    · have hlt : (((1 : ℝ) / 2 : ℝ) : EReal) < ∑ i : Fin 512, (if bhot x1 p i then (1 : EReal) else 0) * x5 (ix2 i (⟨j.val - 1, by have := j.isLt; omega⟩ : Fin 512)) := by
        rw [hm, if_pos hS]; exact half_lt_one
      rw [if_pos hlt, if_pos hS]
    · have hnlt : ¬ (((1 : ℝ) / 2 : ℝ) : EReal) < ∑ i : Fin 512, (if bhot x1 p i then (1 : EReal) else 0) * x5 (ix2 i (⟨j.val - 1, by have := j.isLt; omega⟩ : Fin 512)) := by
        rw [hm, if_neg hS]; exact not_half_lt_zero
      rw [if_neg hnlt, if_neg hS]
      exact bsims_eq h (⟨j.val - 1, by have := j.isLt; omega⟩ : Fin 504)

end

end Cert.BlockMath

end
-- ==== Proof.Blocks.lean ====
/-
  From the blocks to the whole array.

  The launch runs 32 points; point t stages rows 1024 t … 1024 t + 1023 of the tokens' features and of the label
  column, the whole of the four small arrays, and writes back rows 1024 t … 1024 t + 1023 of the result, all 505
  columns.  So row p of point t's blocks is row 1024 t + p of the arrays; what the body stores there is the
  specification at that row (the block mathematics, over what the host side stages); the 32 result blocks tile the
  result array; hence after the run the result array is the specification.
-/
import proofs.«426633_j30193620091605_2_alg».proof.Proof.Gen.KernelIdeal.Value
import proofs.«426633_j30193620091605_2_alg».proof.Proof.KernelHost
import proofs.«426633_j30193620091605_2_alg».proof.Proof.KernelPayload
import proofs.«426633_j30193620091605_2_alg».proof.Proof.BlockMath

set_option maxRecDepth 16384

noncomputable section

namespace Cert.Blocks

open Idealize.ShloMosaic Idealize.ShloMosaic.TcCoe Idealize.ShloMosaic.ValueIdx Idealize.SL.Sem
open Cert.KernelIdeal Cert.KernelIdeal.Gen Cert.KernelHost
open Idealize.ShloMosaic.Pipeline (Dat)
open scoped Classical

variable (m : (ℓ : Loc nD τ sig) → Buf (Elt Ideal) ℓ)

/-- The windows' index maps over the grid: the features, the label column and the result move with the point
    along the rows; the four small arrays stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 32 :=
  (by decide +kernel : ∀ t : Fin grid0.N, _)

/-- Row p of point t's blocks is this row of the arrays. -/
def rowOf (t : Fin cfg0.N) (p : Fin 1024) : Fin 32768 := ⟨t.val * 1024 + p.val, by have := (idx_facts t).2.2.2.2.2.2.2.2.2.2.2.2.2.2; have := p.isLt; omega⟩

/-- Point t's six input blocks, at their plain function types. -/
abbrev blk0 (c : Dev nD) (t : Fin cfg0.N) : S1024x768.Idx → EReal := iblk m c 0 t
abbrev blk1 (c : Dev nD) (t : Fin cfg0.N) : S1024x1.Idx → BitVec 32 := iblk m c 1 t
abbrev blk2 (c : Dev nD) (t : Fin cfg0.N) : S768x256.Idx → EReal := iblk m c 2 t
abbrev blk3 (c : Dev nD) (t : Fin cfg0.N) : S1x256.Idx → EReal := iblk m c 3 t
abbrev blk4 (c : Dev nD) (t : Fin cfg0.N) : S256x512.Idx → EReal := iblk m c 4 t
abbrev blk5 (c : Dev nD) (t : Fin cfg0.N) : S512x512.Idx → EReal := iblk m c 5 t

/-- The features' block at (p, d) is the features at (1024 t + p, d). -/
theorem blk0_apply (c : Dev nD) (t : Fin cfg0.N) (p : Fin 1024) (d : Fin 768) :
    blk0 m c t (ix2 p d) = argX m c (ix2 (rowOf t p) d) := by
  show V m c main_arg0 (((cfg0.win 0).blk t).view.emb (ix2 p d)) = _
  rw [V_main_arg0]
  obtain ⟨e0, e1, -⟩ := idx_facts t
  refine congrArg (m ((c : Thread nD τ).loc main_arg0)) ?_
  funext a; apply Fin.ext
  match a with
  | ⟨0, _⟩ => show win0_0.index t (0 : Fin 2) * 1024 + 1 * p.val = t.val * 1024 + p.val; omega
  | ⟨1, _⟩ => show win0_0.index t (1 : Fin 2) * 768 + 1 * d.val = d.val; omega

/-- The label column's block at (p, 0) is the label of row 1024 t + p. -/
theorem blk1_apply (c : Dev nD) (t : Fin cfg0.N) (p : Fin 1024) :
    blk1 m c t (ix2 p (0 : Fin 1)) = argL m c (ix1 (rowOf t p)) := by
  show V m c main_v18 (((cfg0.win 1).blk t).view.emb (ix2 p (0 : Fin 1))) = _
  obtain ⟨-, -, e2, e3, -⟩ := idx_facts t
  have hidx : ((cfg0.win 1).blk t).view.emb (ix2 p (0 : Fin 1)) = ix2 (rowOf t p) (0 : Fin 1) := by
    funext a; apply Fin.ext
    match a with
    | ⟨0, _⟩ => show win0_1.index t (0 : Fin 2) * 1024 + 1 * p.val = t.val * 1024 + p.val; omega
    | ⟨1, _⟩ => show win0_1.index t (1 : Fin 2) * 1 + 1 * 0 = 0; omega
  rw [hidx]
  exact label_apply m c (rowOf t p)

/-- The transposed projection's block is the whole array. -/
theorem blk2_apply (c : Dev nD) (t : Fin cfg0.N) (d : Fin 768) (k : Fin 256) :
    blk2 m c t (ix2 d k) = argW m c (ix2 k d) := by
  show V m c main_v16 (((cfg0.win 2).blk t).view.emb (ix2 d k)) = _
  obtain ⟨-, -, -, -, e4, e5, -⟩ := idx_facts t
  have hidx : ((cfg0.win 2).blk t).view.emb (ix2 d k) = ix2 d k := by
    funext a; apply Fin.ext
    match a with
    | ⟨0, _⟩ => show win0_2.index t (0 : Fin 2) * 768 + 1 * d.val = d.val; omega
    | ⟨1, _⟩ => show win0_2.index t (1 : Fin 2) * 256 + 1 * k.val = k.val; omega
  rw [hidx]
  exact wT_apply m c d k

/-- The bias row's block is the whole row. -/
theorem blk3_apply (c : Dev nD) (t : Fin cfg0.N) (k : Fin 256) :
    blk3 m c t (ix2 (0 : Fin 1) k) = argB m c (ix1 k) := by
  show V m c main_v17 (((cfg0.win 3).blk t).view.emb (ix2 (0 : Fin 1) k)) = _
  obtain ⟨-, -, -, -, -, -, e6, e7, -⟩ := idx_facts t
  have hidx : ((cfg0.win 3).blk t).view.emb (ix2 (0 : Fin 1) k) = ix2 (0 : Fin 1) k := by
    funext a; apply Fin.ext
    match a with
    | ⟨0, _⟩ => show win0_3.index t (0 : Fin 2) * 1 + 1 * 0 = 0; omega
    | ⟨1, _⟩ => show win0_3.index t (1 : Fin 2) * 256 + 1 * k.val = k.val; omega
  rw [hidx]
  exact bias_apply m c k

/-- The normalised embeddings' block at a real column. -/
theorem blk4_apply (c : Dev nD) (t : Fin cfg0.N) (k : Fin 256) (c' : Fin 504) :
    blk4 m c t (ix2 k (⟨c'.val, by omega⟩ : Fin 512)) = Ideal.div (argE m c (ix2 c' k)) (Cert.Spec.embNorm (argE m c) c') := by
  show V m c main_v7 (((cfg0.win 4).blk t).view.emb (ix2 k (⟨c'.val, by omega⟩ : Fin 512))) = _
  obtain ⟨-, -, -, -, -, -, -, -, e8, e9, -⟩ := idx_facts t
  have hidx : ((cfg0.win 4).blk t).view.emb (ix2 k (⟨c'.val, by omega⟩ : Fin 512)) = ix2 k (⟨c'.val, by omega⟩ : Fin 512) := by
    funext a; apply Fin.ext
    match a with
    | ⟨0, _⟩ => show win0_4.index t (0 : Fin 2) * 256 + 1 * k.val = k.val; omega
    | ⟨1, _⟩ => show win0_4.index t (1 : Fin 2) * 512 + 1 * c'.val = c'.val; omega
  rw [hidx]
  exact enT_apply m c k c'

/-- The table of equal rows' block at two real rows. -/
theorem blk5_apply (c : Dev nD) (t : Fin cfg0.N) (a c' : Fin 504) :
    blk5 m c t (ix2 (⟨a.val, by omega⟩ : Fin 512) (⟨c'.val, by omega⟩ : Fin 512))
      = if Cert.Spec.SameRow (argE m c) a c' then (1 : EReal) else 0 := by
  show V m c main_v14 (((cfg0.win 5).blk t).view.emb (ix2 (⟨a.val, by omega⟩ : Fin 512) (⟨c'.val, by omega⟩ : Fin 512))) = _
  obtain ⟨-, -, -, -, -, -, -, -, -, -, e10, e11, -⟩ := idx_facts t
  have hidx : ((cfg0.win 5).blk t).view.emb (ix2 (⟨a.val, by omega⟩ : Fin 512) (⟨c'.val, by omega⟩ : Fin 512))
      = ix2 (⟨a.val, by omega⟩ : Fin 512) (⟨c'.val, by omega⟩ : Fin 512) := by
    funext b; apply Fin.ext
    match b with
    | ⟨0, _⟩ => show win0_5.index t (0 : Fin 2) * 512 + 1 * a.val = a.val; omega
    | ⟨1, _⟩ => show win0_5.index t (1 : Fin 2) * 512 + 1 * c'.val = c'.val; omega
  rw [hidx]
  exact eq_apply m c a c'

/-- Row p of point t's blocks holds what the program stages for row 1024 t + p of the arrays. -/
theorem rowOf_blocks (c : Dev nD) (t : Fin cfg0.N) (p : Fin 1024) :
    Cert.BlockMath.RowOf (blk0 m c t) (blk1 m c t) (blk2 m c t) (blk3 m c t) (blk4 m c t) (blk5 m c t)
      (argX m c) (argL m c) (argW m c) (argB m c) (argE m c) p (rowOf t p) :=
  ⟨fun d => blk0_apply m c t p d, blk1_apply m c t p, fun d k => blk2_apply m c t d k, fun k => blk3_apply m c t k,
    fun k c' => blk4_apply m c t k c', fun a c' => blk5_apply m c t a c'⟩

/-- The result's block at (p, q) sits at (1024 t + p, q) of the result array. -/
theorem emb6 (t : Fin cfg0.N) (p : Fin 1024) (q : Fin 505) :
    ((cfg0.win 6).blk t).view.emb (ix2 p q) = ix2 (rowOf t p) q := by
  obtain ⟨-, -, -, -, -, -, -, -, -, -, -, -, e12, e13, -⟩ := idx_facts t
  funext a; apply Fin.ext
  match a with
  | ⟨0, _⟩ => show win0_6.index t (0 : Fin 2) * 1024 + 1 * p.val = t.val * 1024 + p.val; omega
  | ⟨1, _⟩ => show win0_6.index t (1 : Fin 2) * 505 + 1 * q.val = q.val; omega

/-- What point t writes back is block t of the specification. -/
theorem flushed6_eq (c : Dev nD) (hr : Cert.Spec.InRange (argL m c)) (t : Fin cfg0.N) :
    (dats m 0 c).flushed 6 t = ((cfg0.win 6).blk t).view.read (Elt Ideal)
      (Cert.Spec.G (argX m c) (argL m c) (argW m c) (argB m c) (argE m c)) := by
  rw [Cert.KernelIdeal.Value.flushed6]
  funext y
  obtain ⟨p, q, rfl⟩ : ∃ (p : Fin 1024) (q : Fin 505), y = ix2 p q := ⟨y 0, y 1, eq_ix2 y⟩
  show out0_6 (F := Ideal) (blk0 m c t) (blk1 m c t) (blk2 m c t) (blk3 m c t) (blk4 m c t) (blk5 m c t) (ix2 p q)
    = Cert.Spec.G (argX m c) (argL m c) (argW m c) (argB m c) (argE m c) (((cfg0.win 6).blk t).view.emb (ix2 p q))
  rw [Cert.KernelPayload.out_apply, Cert.BlockMath.bout_eq (rowOf_blocks m c t p) hr q, emb6 t p q, Cert.Spec.G_ix2]

/-- An index of the result array is in point t's block iff each coordinate is in the block's range on its axis. -/
theorem mem_blk6 (t : Fin cfg0.N) (i : S32768x505.Idx) :
    i ∈ ((cfg0.win 6).blk t).view.set ↔ ∀ a : Fin 2, win0_6.index t a * S1024x505.size a ≤ (i a).val ∧ (i a).val < win0_6.index t a * S1024x505.size a + S1024x505.size a := by
  show i ∈ ((View.whole main_v19).slice (win0_6.rect t)).set ↔ _
  rw [View.set_slice_whole, Rect.mem_set_unit]
  exact Iff.rfl

/-- Every index of the result array is in some point's block: row i is in block i / 1024. -/
theorem cover6 (i : S32768x505.Idx) : ∃ t : Fin cfg0.N, (cfg0.win 6).flush t = true ∧ i ∈ ((cfg0.win 6).blk t).view.set := by
  have hi0 : (i 0).val < 32768 := (i 0).isLt
  have hi1 : (i 1).val < 505 := (i 1).isLt
  have hN : (i 0).val / 1024 < cfg0.N := by
    have h32 : cfg0.N = 32 := N_0
    rw [h32]; omega
  refine ⟨⟨(i 0).val / 1024, hN⟩, flush0_6 _, ?_⟩
  rw [mem_blk6]
  obtain ⟨-, -, -, -, -, -, -, -, -, -, -, -, e12, e13, -⟩ := idx_facts ⟨(i 0).val / 1024, hN⟩
  have e12' : win0_6.index ⟨(i 0).val / 1024, hN⟩ (0 : Fin 2) = (i 0).val / 1024 := e12
  intro a
  match a with
  | ⟨0, _⟩ => show win0_6.index ⟨(i 0).val / 1024, hN⟩ (0 : Fin 2) * 1024 ≤ (i 0).val ∧ (i 0).val < win0_6.index ⟨(i 0).val / 1024, hN⟩ (0 : Fin 2) * 1024 + 1024; omega
  | ⟨1, _⟩ => show win0_6.index ⟨(i 0).val / 1024, hN⟩ (1 : Fin 2) * 505 ≤ (i 1).val ∧ (i 1).val < win0_6.index ⟨(i 0).val / 1024, hN⟩ (1 : Fin 2) * 505 + 505; omega

/-- After the run the result array is the specification. -/
theorem final (c : Dev nD) (hr : Cert.Spec.InRange (argL m c)) :
    (dats m 0 c).arrAt 6 cfg0.N = Cert.Spec.G (argX m c) (argL m c) (argW m c) (argB m c) (argE m c) :=
  (dats m 0 c).arrAt_eq_of_cover 6 (Cert.Spec.G (argX m c) (argL m c) (argW m c) (argB m c) (argE m c))
    (fun t _ => flushed6_eq m c hr t) cover6

/-- The kernel's run: every weakly fair execution ends with the result array at the specification and the
    arguments unchanged. -/
theorem run (ρ : Dev nD → PrngReg) (hr : ∀ c : Dev nD, Cert.Spec.InRange (argL m c)) :
    θ_run defs (onTc (τ := τ) (main (F := Ideal))) ⟨m, fun _ => 0, ρ⟩ fun r => ∀ c : Dev nD,
      r.2.mem ((c : Thread nD τ).loc main_v19) = Cert.Spec.G (argX m c) (argL m c) (argW m c) (argB m c) (argE m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hr c)), (h c).2⟩)
    (Cert.KernelIdeal.Value.run_blocks m ρ)

end Cert.Blocks

end
-- ==== Proof.PreDecode.lean ====
/-
  The precondition gives the range condition.

  The precondition is a conjunction of one-bit words: four "every entry is finite" tests of the float arrays and,
  last, "every label is at least 0 and below 504", each comparison signed.  When the whole is 1, the last conjunct
  is 1; an "and" over all labels that is 1 has every term 1; a term is the "and" of the two comparisons' bits; and a
  signed comparison's bit is 1 exactly when the comparison holds of the words read as signed integers.
-/
import proofs.«426633_j30193620091605_2_alg».proof.Pre_finite_inputs
import proofs.«426633_j30193620091605_2_alg».proof.Proof.Spec
import Idealize.ShloMosaic.Lib.ReduceAll
import Idealize.ShloMosaic.Lib.Affine
import Idealize.ShloMosaic.Lib.WordArith
import Idealize.ShloMosaic.Lib.IdealHost
import Idealize.ShloMosaic.Lib.ValueLayout

noncomputable section

namespace Cert.PreDecode

open Idealize.ShloMosaic Idealize.ShloMosaic.ValueIdx Cert.Pre_finite_inputs

/-- The one index of a rank-0 array. -/
instance : Subsingleton S_.Idx := ⟨fun a b => funext fun d => d.elim0⟩

/-- If the precondition is 1 then every label is in [0, 504) as a signed integer. -/
theorem inRange_of_pre [Cert.Pre_finite_inputs.Facts] (x0 : FVec Ideal S32768x768 .f32) (x1 : IVec S32768 32)
    (x2 : FVec Ideal S256x768 .f32) (x3 : FVec Ideal S256 .f32) (x4 : FVec Ideal S504x256 .f32)
    (h : fn (F := Ideal) x0 x1 x2 x3 x4 = fun _ => 1#1) : Cert.Spec.InRange x1 := by
  intro t
  have h0 := congrFun h ValueIdx.ix0
  dsimp only [fn, fn_part1] at h0
  -- the last conjunct: the "and" over all labels of the two comparisons
  have hall := (IntOp.andi_eq_one.1 h0).2
  have hterm := Host.reduce_andi_all _ _ _ _ _ hall (ix1 t)
  obtain ⟨hge, hlt⟩ := IntOp.andi_eq_one.1 hterm
  -- the comparisons' bits, at label t, against the constants 0 and 504
  have hge' : IntOp.cmpi .sge (x1 (ix1 t)) 0#32 = 1#1 := hge
  have hlt' : IntOp.cmpi .slt (x1 (ix1 t)) 504#32 = 1#1 := hlt
  unfold IntOp.cmpi at hge' hlt'
  rw [WordArith.ofBool_eq_one_iff] at hge' hlt'
  have h1 := BitVec.sle_iff_toInt_le.1 hge'
  have h2 := BitVec.slt_iff_toInt_lt.1 hlt'
  exact ⟨by simpa using h1, by simpa using h2⟩

end Cert.PreDecode

end
-- ==== Proof.lean ====
/-
  Cosine-similarity logits with a duplicate-embedding mask: a Pallas kernel against its jnp reference, equal over
  the extended reals.

  For 32768 tokens and 504 label embeddings both programs compute a [32768, 505] array: each token is projected
  (768 to 256 features, a matrix product plus a bias) and it and every embedding are divided by their Euclidean norms
  clamped below by 1e-8; the cosine of token and embedding is divided by the temperature 0.1; column 0 holds the
  logit of the token's own label, column 1 + c the logit against embedding c, replaced by minus infinity where
  embedding c equals the label's embedding entry by entry.  Proof/Spec.lean states this once, as Spec.G.

  The kernel works on blocks of 1024 tokens over embeddings padded to 512 rows, takes both "row lookups" as sums
  against a one-hot row over the 512 columns, and multiplies by a constant where the reference divides by the
  temperature.  That constant is named: it denotes 134217728 / 13421773, the exact reciprocal of the value
  13421773 / 134217728 that the temperature's 32-bit pattern denotes, and a quotient by a nonzero real is the product
  with its reciprocal on every extended real (Proof/BlockMath.lean, with the one-hot sums; no finiteness is used
  anywhere).  The precondition's range conjunct, every label in [0, 504), is what makes the one-hot row hit exactly
  the label's column and keeps the reference's two lookups inside their tables (Proof/PreDecode.lean reads it off
  the printed predicate).

  Kernel side: what the launch stages (Proof/KernelHost.lean), what the body stores entry by entry
  (Proof/KernelPayload.lean), from blocks to the whole array (Proof/Blocks.lean).  Reference side: the reference's
  run and its stages read at an index (Proof/RefRun.lean, Proof/RefRead.lean), and that its result is the
  specification (Proof/RefIsSpec.lean).  The two frames of the kernel are the generated ones; the reference's frame
  is its run with the result dropped; the idealization's one rewrite is the named constant's statement.
-/
import proofs.«426633_j30193620091605_2_alg».proof.Defs
import proofs.«426633_j30193620091605_2_alg».proof.Proof.Gen.Kernel
import proofs.«426633_j30193620091605_2_alg».proof.Proof.Gen.Kernel.Skeleton
import proofs.«426633_j30193620091605_2_alg».proof.Proof.Gen.Kernel.Launch
import proofs.«426633_j30193620091605_2_alg».proof.Proof.Gen.Kernel.Points
import proofs.«426633_j30193620091605_2_alg».proof.Proof.Gen.Kernel.Frame
import proofs.«426633_j30193620091605_2_alg».proof.Proof.Gen.KernelIdeal
import proofs.«426633_j30193620091605_2_alg».proof.Proof.Gen.KernelIdeal.Skeleton
import proofs.«426633_j30193620091605_2_alg».proof.Proof.Gen.KernelIdeal.Launch
import proofs.«426633_j30193620091605_2_alg».proof.Proof.Gen.KernelIdeal.Points
import proofs.«426633_j30193620091605_2_alg».proof.Proof.Gen.KernelIdeal.Frame
import proofs.«426633_j30193620091605_2_alg».proof.Proof.Gen.ReferenceIdeal
import proofs.«426633_j30193620091605_2_alg».proof.Proof.Gen.Pre_finite_inputs
import proofs.«426633_j30193620091605_2_alg».proof.Proof.Gen.KernelIdeal.Value
import proofs.«426633_j30193620091605_2_alg».proof.Proof.RefRun
import proofs.«426633_j30193620091605_2_alg».proof.Proof.RefRead
import proofs.«426633_j30193620091605_2_alg».proof.Proof.RefIsSpec
import proofs.«426633_j30193620091605_2_alg».proof.Proof.Blocks
import proofs.«426633_j30193620091605_2_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealization's one rewrite: the scale constant's pattern is read as 134217728 / 13421773. -/
theorem preserves : Cert.preserves_Kernel_KernelIdeal :=
  IdealRules.named_const.statement Cert.KernelIdeal.κ "inv_temp" .f32 0x41200000#32 (((134217728 : ℝ) / 13421773 : ℝ) : EReal) rfl

/-- From memories agreeing on the arguments both programs end with the specification of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ c : Dev Cert.KernelIdeal.nD, Cert.Spec.InRange (Cert.KernelHost.argL m c) :=
    fun c => Cert.PreDecode.inRange_of_pre _ _ _ _ _ (hpre c)
  refine ⟨fun c => Cert.Spec.G (Cert.KernelHost.argX m c) (Cert.KernelHost.argL m c) (Cert.KernelHost.argW m c)
      (Cert.KernelHost.argB m c) (Cert.KernelHost.argE m c), Cert.Blocks.run m ρ hr, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v35_eq, (hagree c).1, (hagree c).2.1, (hagree c).2.2.1, (hagree c).2.2.2.1, (hagree c).2.2.2.2]
  exact Cert.RefIsSpec.ref_eq _ _ _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
